-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x1024 : Shape := ⟨3, ![4, 256, 1024]⟩
abbrev S4x64x640 : Shape := ⟨3, ![4, 64, 640]⟩
abbrev S1024x640 : Shape := ⟨2, ![1024, 640]⟩
abbrev S640 : Shape := ⟨1, ![640]⟩
abbrev S640x640 : Shape := ⟨2, ![640, 640]⟩
abbrev S640x1025 : Shape := ⟨2, ![640, 1025]⟩
abbrev S1025 : Shape := ⟨1, ![1025]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S4x64x640 : S_.BroadcastsInDim S4x64x640 (![] : Fin 0 → Fin S4x64x640.rank)
  reducesTo_S4x64x640_S_d0_1_2 : S4x64x640.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_
  bcast_S_S640x640 : S_.BroadcastsInDim S640x640 (![] : Fin 0 → Fin S640x640.rank)
  reducesTo_S640x640_S_d0_1 : S640x640.ReducesTo [0, 1] S_
  bcast_S_S640x1025 : S_.BroadcastsInDim S640x1025 (![] : Fin 0 → Fin S640x1025.rank)
  reducesTo_S640x1025_S_d0_1 : S640x1025.ReducesTo [0, 1] S_
  bcast_S_S1025 : S_.BroadcastsInDim S1025 (![] : Fin 0 → Fin S1025.rank)
  reducesTo_S1025_S_d0 : S1025.ReducesTo [0] S_

variable [Facts]

def fn_part2 {F : FTy → Type} [FloatOps F] (main_arg7 : FVec F S1025 .f32) (main_v33 : IVec S_ 1) : IVec S_ 1 :=
  let main_v34 : FVec F S1025 .f32 := Host.absf main_arg7
  let main_cst_12 : FVec F S_ .f32 := constant S_ .f32 0x7F800000#32
  let main_v35 : FVec F S1025 .f32 := broadcastInDim S1025 ![] bcast_S_S1025 main_cst_12
  let main_v36 : IVec S1025 1 := cmpf .olt main_v34 main_v35
  let main_c_13 : IVec S_ 1 := constantI S_ 1 1#1
  let main_v37 : IVec S_ 1 := (fun x v => Host.reduce IntOp.andi x v reducesTo_S1025_S_d0 h_S_) main_v36 main_c_13
  let main_v38 : IVec S_ 1 := andi main_v33 main_v37
  main_v38

def fn_part1 {F : FTy → Type} [FloatOps F] (main_arg4 : FVec F S640x640 .f32) (main_arg5 : FVec F S640 .f32) (main_arg6 : FVec F S640x1025 .f32) (main_arg7 : FVec F S1025 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x640 .f32 := Host.absf main_arg4
  let main_cst_6 : FVec F S_ .f32 := constant S_ .f32 0x7F800000#32
  let main_v20 : FVec F S640x640 .f32 := broadcastInDim S640x640 ![] bcast_S_S640x640 main_cst_6
  let main_v21 : IVec S640x640 1 := cmpf .olt main_v19 main_v20
  let main_c_7 : IVec S_ 1 := constantI S_ 1 1#1
  let main_v22 : IVec S_ 1 := (fun x v => Host.reduce IntOp.andi x v reducesTo_S640x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1025 .f32 := Host.absf main_arg6
  let main_cst_10 : FVec F S_ .f32 := constant S_ .f32 0x7F800000#32
  let main_v30 : FVec F S640x1025 .f32 := broadcastInDim S640x1025 ![] bcast_S_S640x1025 main_cst_10
  let main_v31 : IVec S640x1025 1 := cmpf .olt main_v29 main_v30
  let main_c_11 : IVec S_ 1 := constantI S_ 1 1#1
  let main_v32 : IVec S_ 1 := (fun x v => Host.reduce IntOp.andi x v reducesTo_S640x1025_S_d0_1 h_S_) main_v31 main_c_11
  let main_v33 : IVec S_ 1 := andi main_v28 main_v32
  fn_part2 (F := F) main_arg7 main_v33

def fn {F : FTy → Type} [FloatOps F] (main_arg0 : FVec F S4x256x1024 .f32) (main_arg1 : FVec F S4x64x640 .f32) (main_arg2 : FVec F S1024x640 .f32) (main_arg3 : FVec F S640 .f32) (main_arg4 : FVec F S640x640 .f32) (main_arg5 : FVec F S640 .f32) (main_arg6 : FVec F S640x1025 .f32) (main_arg7 : FVec F S1025 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S4x64x640 .f32 := Host.absf main_arg1
  let main_cst_0 : FVec F S_ .f32 := constant S_ .f32 0x7F800000#32
  let main_v5 : FVec F S4x64x640 .f32 := broadcastInDim S4x64x640 ![] bcast_S_S4x64x640 main_cst_0
  let main_v6 : IVec S4x64x640 1 := cmpf .olt main_v4 main_v5
  let main_c_1 : IVec S_ 1 := constantI S_ 1 1#1
  let main_v7 : IVec S_ 1 := (fun x v => Host.reduce IntOp.andi x v reducesTo_S4x64x640_S_d0_1_2 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x256x1024 : Shape := ⟨3, ![4, 256, 1024]⟩
abbrev S4x64x640 : Shape := ⟨3, ![4, 64, 640]⟩
abbrev S1024x640 : Shape := ⟨2, ![1024, 640]⟩
abbrev S640 : Shape := ⟨1, ![640]⟩
abbrev S640x640 : Shape := ⟨2, ![640, 640]⟩
abbrev S640x1025 : Shape := ⟨2, ![640, 1025]⟩
abbrev S1025 : Shape := ⟨1, ![1025]⟩
abbrev S1024x1024 : Shape := ⟨2, ![1024, 1024]⟩
abbrev S256x640 : Shape := ⟨2, ![256, 640]⟩
abbrev S1x640 : Shape := ⟨2, ![1, 640]⟩
abbrev S4x256x640 : Shape := ⟨3, ![4, 256, 640]⟩
abbrev S4x256x64x1025 : Shape := ⟨4, ![4, 256, 64, 1025]⟩
abbrev S1x32x640 : Shape := ⟨3, ![1, 32, 640]⟩
abbrev S1x64x640 : Shape := ⟨3, ![1, 64, 640]⟩
abbrev S1x32x64x1025 : Shape := ⟨4, ![1, 32, 64, 1025]⟩
abbrev S32x640 : Shape := ⟨2, ![32, 640]⟩
abbrev S64x640 : Shape := ⟨2, ![64, 640]⟩
abbrev S32x1x640 : Shape := ⟨3, ![32, 1, 640]⟩
abbrev S32x64x640 : Shape := ⟨3, ![32, 64, 640]⟩
abbrev S2048x640 : Shape := ⟨2, ![2048, 640]⟩
abbrev S2048x1025 : Shape := ⟨2, ![2048, 1025]⟩
abbrev S32x64x1025 : Shape := ⟨3, ![32, 64, 1025]⟩
abbrev S1x1x1025 : Shape := ⟨3, ![1, 1, 1025]⟩

abbrev nBuf : Space → Nat
  | .hbm => 15
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x64x640, .f32⟩
  | .hbm, ⟨2, _⟩ => ⟨S1024x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1025, .f32⟩
  | .hbm, ⟨7, _⟩ => ⟨S1025, .f32⟩
  | .hbm, ⟨8, _⟩ => ⟨S1024x1024, .f32⟩
  | .hbm, ⟨9, _⟩ => ⟨S256x640, .f32⟩
  | .hbm, ⟨10, _⟩ => ⟨S1024x640, .f32⟩
  | .hbm, ⟨11, _⟩ => ⟨S256x640, .f32⟩
  | .hbm, ⟨12, _⟩ => ⟨S4x256x640, .f32⟩
  | .hbm, ⟨13, _⟩ => ⟨S4x64x640, .f32⟩
  | .hbm, ⟨14, _⟩ => ⟨S4x256x64x1025, .f32⟩
  | .local _ .vmem, ⟨0, _⟩ => ⟨S1024x1024, .f32⟩
  | .local _ .vmem, ⟨1, _⟩ => ⟨S1024x640, .f32⟩
  | .local _ .vmem, ⟨2, _⟩ => ⟨S640, .f32⟩
  | .local _ .vmem, ⟨3, _⟩ => ⟨S1024x640, .f32⟩
  | .local _ .vmem, ⟨4, _⟩ => ⟨S256x640, .f32⟩
  | .local _ .vmem, ⟨5, _⟩ => ⟨S640x640, .f32⟩
  | .local _ .vmem, ⟨6, _⟩ => ⟨S640, .f32⟩
  | .local _ .vmem, ⟨7, _⟩ => ⟨S256x640, .f32⟩
  | .local _ .vmem, ⟨8, _⟩ => ⟨S1x32x640, .f32⟩
  | .local _ .vmem, ⟨9, _⟩ => ⟨S1x32x640, .f32⟩
  | .local _ .vmem, ⟨10, _⟩ => ⟨S1x64x640, .f32⟩
  | .local _ .vmem, ⟨11, _⟩ => ⟨S1x64x640, .f32⟩
  | .local _ .vmem, ⟨12, _⟩ => ⟨S640x1025, .f32⟩
  | .local _ .vmem, ⟨13, _⟩ => ⟨S1025, .f32⟩
  | .local _ .vmem, ⟨14, _⟩ => ⟨S1x32x64x1025, .f32⟩
  | .local _ .vmem, ⟨15, _⟩ => ⟨S1x32x64x1025, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S640x1025 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1025 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x32x64x1025 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S4x256x1024_S1024x1024 : S4x256x1024.ShapeCasts S1024x1024
  shapeCasts_S4x64x640_S256x640 : S4x64x640.ShapeCasts S256x640
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x640_S1024x640_0_0 : ∀ a, (![0, 0] : Fin 2 → Nat) a + S1024x640.size a ≤ S1024x640.size a
  h_S1024x640 : 0 < S1024x640.numel
  inb_S640_S640_0 : ∀ a, (![0] : Fin 1 → Nat) a + S640.size a ≤ S640.size a
  h_S640 : 0 < S640.numel
  shapeCasts_S640_S1x640 : S640.ShapeCasts S1x640
  broadcasts_S1x640_S1024x640 : S1x640.Broadcasts S1024x640
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S640x640_S640x640_0_0 : ∀ a, (![0, 0] : Fin 2 → Nat) a + S640x640.size a ≤ S640x640.size a
  h_S640x640 : 0 < S640x640.numel
  broadcasts_S1x640_S256x640 : S1x640.Broadcasts S256x640
  shapeCasts_S1024x640_S4x256x640 : S1024x640.ShapeCasts S4x256x640
  shapeCasts_S256x640_S4x64x640 : S256x640.ShapeCasts S4x64x640
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  bitsLt_bf16_f32 : FTy.bits .bf16 < FTy.bits .f32
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S32x640_S32x1x640 : S32x640.ShapeCasts S32x1x640
  shapeCasts_S64x640_S1x64x640 : S64x640.ShapeCasts S1x64x640
  broadcasts_S32x1x640_S32x64x640 : S32x1x640.Broadcasts S32x64x640
  broadcasts_S1x64x640_S32x64x640 : S1x64x640.Broadcasts S32x64x640
  shapeCasts_S32x64x640_S2048x640 : S32x64x640.ShapeCasts S2048x640
  inb_S640x1025_S640x1025_0_0 : ∀ a, (![0, 0] : Fin 2 → Nat) a + S640x1025.size a ≤ S640x1025.size a
  h_S640x1025 : 0 < S640x1025.numel
  shapeCasts_S2048x1025_S32x64x1025 : S2048x1025.ShapeCasts S32x64x1025
  inb_S1025_S1025_0 : ∀ a, (![0] : Fin 1 → Nat) a + S1025.size a ≤ S1025.size a
  h_S1025 : 0 < S1025.numel
  shapeCasts_S1025_S1x1x1025 : S1025.ShapeCasts S1x1x1025
  broadcasts_S1x1x1025_S32x64x1025 : S1x1x1025.Broadcasts S32x64x1025
  inb_S1x32x64x1025_S1x32x64x1025_0_0_0_0 : ∀ a, (![0, 0, 0, 0] : Fin 4 → Nat) a + S1x32x64x1025.size a ≤ S1x32x64x1025.size a
  h_S1x32x64x1025 : 0 < S1x32x64x1025.numel
  shapeCasts_S1x32x64x1025_S32x64x1025 : S1x32x64x1025.ShapeCasts S32x64x1025
  shapeCasts_S32x64x1025_S1x32x64x1025 : S32x64x1025.ShapeCasts S1x32x64x1025
  dot_S1024x1024_S1024x640_S1024x640_1_0_0_1_n_n_wf : DotDims.WF S1024x1024 S1024x640 S1024x640 [1] [0] [0] [1] [] []
  dot_S256x640_S640x640_S256x640_1_0_0_1_n_n_wf : DotDims.WF S256x640 S640x640 S256x640 [1] [0] [0] [1] [] []
  dot_S2048x640_S640x1025_S2048x1025_1_0_0_1_n_n_wf : DotDims.WF S2048x640 S640x1025 S2048x1025 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x640.size a ≤ S1024x640.size a
  hwx0_1 : ∀ i : grid0.Coords, EltTy.bits .f32 = 32 ∨ (Rect.block (s := S1024x640) S1024x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640.size a ≤ S640.size a
  hwx0_2 : ∀ i : grid0.Coords, EltTy.bits .f32 = 32 ∨ (Rect.block (s := S640) S640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S1024x640.size a
  hwx0_3 : ∀ i : grid0.Coords, EltTy.bits .f32 = 32 ∨ (Rect.block (s := S1024x640) S1024x640.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x640.size a ≤ S256x640.size a
  hwx1_0 : ∀ i : grid1.Coords, EltTy.bits .f32 = 32 ∨ (Rect.block (s := S256x640) S256x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x640.size a ≤ S640x640.size a
  hwx1_1 : ∀ i : grid1.Coords, EltTy.bits .f32 = 32 ∨ (Rect.block (s := S640x640) S640x640.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640.size a ≤ S640.size a
  hwx1_2 : ∀ i : grid1.Coords, EltTy.bits .f32 = 32 ∨ (Rect.block (s := S640) S640.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x640.size a ≤ S256x640.size a
  hwx1_3 : ∀ i : grid1.Coords, EltTy.bits .f32 = 32 ∨ (Rect.block (s := S256x640) S256x640.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x640.size a ≤ S4x256x640.size a
  hwx2_0 : ∀ i : grid2.Coords, EltTy.bits .f32 = 32 ∨ (Rect.block (s := S4x256x640) S1x32x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x640.size a ≤ S4x64x640.size a
  hwx2_1 : ∀ i : grid2.Coords, EltTy.bits .f32 = 32 ∨ (Rect.block (s := S4x64x640) S1x64x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640x1025.size a ≤ S640x1025.size a
  hwx2_2 : ∀ i : grid2.Coords, EltTy.bits .f32 = 32 ∨ (Rect.block (s := S640x1025) S640x1025.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1025.size a ≤ S1025.size a
  hwx2_3 : ∀ i : grid2.Coords, EltTy.bits .f32 = 32 ∨ (Rect.block (s := S1025) S1025.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x64x1025.size a ≤ S4x256x64x1025.size a
  hwx2_4 : ∀ i : grid2.Coords, EltTy.bits .f32 = 32 ∨ (Rect.block (s := S4x256x64x1025) S1x32x64x1025.size (cc2_transform_4 i) (hinb2_4 i)).WholeWords (EltTy.packing .f32)

variable [Facts₀]

def dot_S1024x1024_S1024x640_S1024x640_1_0_0_1_n_n : DotDims S1024x1024 S1024x640 S1024x640 where
  lhsContracting := [1]
  rhsContracting := [0]
  lhsNonContracting := [0]
  rhsNonContracting := [1]
  lhsBatch := []
  rhsBatch := []
  wf := dot_S1024x1024_S1024x640_S1024x640_1_0_0_1_n_n_wf
def dot_S256x640_S640x640_S256x640_1_0_0_1_n_n : DotDims S256x640 S640x640 S256x640 where
  lhsContracting := [1]
  rhsContracting := [0]
  lhsNonContracting := [0]
  rhsNonContracting := [1]
  lhsBatch := []
  rhsBatch := []
  wf := dot_S256x640_S640x640_S256x640_1_0_0_1_n_n_wf
def dot_S2048x640_S640x1025_S2048x1025_1_0_0_1_n_n : DotDims S2048x640 S640x1025 S2048x1025 where
  lhsContracting := [1]
  rhsContracting := [0]
  lhsNonContracting := [0]
  rhsNonContracting := [1]
  lhsBatch := []
  rhsBatch := []
  wf := dot_S2048x640_S640x1025_S2048x1025_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x640.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x640.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S640x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x640.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x32x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S640x1025.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1025.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x32x64x1025.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x256x1024 : Shape := ⟨3, ![4, 256, 1024]⟩
abbrev S4x64x640 : Shape := ⟨3, ![4, 64, 640]⟩
abbrev S1024x640 : Shape := ⟨2, ![1024, 640]⟩
abbrev S640 : Shape := ⟨1, ![640]⟩
abbrev S640x640 : Shape := ⟨2, ![640, 640]⟩
abbrev S640x1025 : Shape := ⟨2, ![640, 1025]⟩
abbrev S1025 : Shape := ⟨1, ![1025]⟩
abbrev S4x256x640 : Shape := ⟨3, ![4, 256, 640]⟩
abbrev S1x1x640 : Shape := ⟨3, ![1, 1, 640]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S_ : Shape := ⟨0, ![]⟩
abbrev S4x256x64x1025 : Shape := ⟨4, ![4, 256, 64, 1025]⟩
abbrev S1x1x1x1025 : Shape := ⟨4, ![1, 1, 1, 1025]⟩

abbrev nBuf : Space → Nat
  | .hbm => 28
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x64x640, .f32⟩
  | .hbm, ⟨2, _⟩ => ⟨S1024x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1025, .f32⟩
  | .hbm, ⟨7, _⟩ => ⟨S1025, .f32⟩
  | .hbm, ⟨8, _⟩ => ⟨S4x256x640, .f32⟩
  | .hbm, ⟨9, _⟩ => ⟨S1x1x640, .f32⟩
  | .hbm, ⟨10, _⟩ => ⟨S4x256x640, .f32⟩
  | .hbm, ⟨11, _⟩ => ⟨S4x256x640, .f32⟩
  | .hbm, ⟨12, _⟩ => ⟨S4x64x640, .f32⟩
  | .hbm, ⟨13, _⟩ => ⟨S1x1x640, .f32⟩
  | .hbm, ⟨14, _⟩ => ⟨S4x64x640, .f32⟩
  | .hbm, ⟨15, _⟩ => ⟨S4x64x640, .f32⟩
  | .hbm, ⟨16, _⟩ => ⟨S4x256x1x640, .f32⟩
  | .hbm, ⟨17, _⟩ => ⟨S4x1x64x640, .f32⟩
  | .hbm, ⟨18, _⟩ => ⟨S4x256x64x640, .f32⟩
  | .hbm, ⟨19, _⟩ => ⟨S4x256x64x640, .f32⟩
  | .hbm, ⟨20, _⟩ => ⟨S4x256x64x640, .f32⟩
  | .hbm, ⟨21, _⟩ => ⟨S_, .f32⟩
  | .hbm, ⟨22, _⟩ => ⟨S4x256x64x640, .f32⟩
  | .hbm, ⟨23, _⟩ => ⟨S4x256x64x640, .f32⟩
  | .hbm, ⟨24, _⟩ => ⟨S4x256x64x1025, .f32⟩
  | .hbm, ⟨25, _⟩ => ⟨S1x1x1x1025, .f32⟩
  | .hbm, ⟨26, _⟩ => ⟨S4x256x64x1025, .f32⟩
  | .hbm, ⟨27, _⟩ => ⟨S4x256x64x1025, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x64x640_0_1_2 : S1x1x640.BroadcastsInDim S4x64x640 (![0, 1, 2] : Fin 3 → Fin S4x64x640.rank)
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S_S4x256x64x640 : S_.BroadcastsInDim S4x256x64x640 (![] : Fin 0 → Fin S4x256x64x640.rank)
  bcast_S1025_S1x1x1x1025_3 : S1025.BroadcastsInDim S1x1x1x1025 (![3] : Fin 1 → Fin S1x1x1x1025.rank)
  bcast_S1x1x1x1025_S4x256x64x1025_0_1_2_3 : S1x1x1x1025.BroadcastsInDim S4x256x64x1025 (![0, 1, 2, 3] : Fin 4 → Fin S4x256x64x1025.rank)
  dot_S4x256x1024_S1024x640_S4x256x640_2_0_01_1_n_n_wf : DotDims.WF S4x256x1024 S1024x640 S4x256x640 [2] [0] [0, 1] [1] [] []
  dot_S4x64x640_S640x640_S4x64x640_2_0_01_1_n_n_wf : DotDims.WF S4x64x640 S640x640 S4x64x640 [2] [0] [0, 1] [1] [] []
  dot_S4x256x64x640_S640x1025_S4x256x64x1025_3_0_012_1_n_n_wf : DotDims.WF S4x256x64x640 S640x1025 S4x256x64x1025 [3] [0] [0, 1, 2] [1] [] []

variable [Facts₀]

def dot_S4x256x1024_S1024x640_S4x256x640_2_0_01_1_n_n : DotDims S4x256x1024 S1024x640 S4x256x640 where
  lhsContracting := [2]
  rhsContracting := [0]
  lhsNonContracting := [0, 1]
  rhsNonContracting := [1]
  lhsBatch := []
  rhsBatch := []
  wf := dot_S4x256x1024_S1024x640_S4x256x640_2_0_01_1_n_n_wf
def dot_S4x64x640_S640x640_S4x64x640_2_0_01_1_n_n : DotDims S4x64x640 S640x640 S4x64x640 where
  lhsContracting := [2]
  rhsContracting := [0]
  lhsNonContracting := [0, 1]
  rhsNonContracting := [1]
  lhsBatch := []
  rhsBatch := []
  wf := dot_S4x64x640_S640x640_S4x64x640_2_0_01_1_n_n_wf
def dot_S4x256x64x640_S640x1025_S4x256x64x1025_3_0_012_1_n_n : DotDims S4x256x64x640 S640x1025 S4x256x64x1025 where
  lhsContracting := [3]
  rhsContracting := [0]
  lhsNonContracting := [0, 1, 2]
  rhsNonContracting := [1]
  lhsBatch := []
  rhsBatch := []
  wf := dot_S4x256x64x640_S640x1025_S4x256x64x1025_3_0_012_1_n_n_wf

class Facts : Prop extends Facts₀ where

variable [Facts]
-- ==== Proof.Spec.lean ====
/-
  What both programs compute, as plain functions of the argument arrays over the extended reals, index by index.

  A transducer joint network: an encoder sequence `f[b,t,·]` and a prediction sequence `g[b,u,·]` are each sent
  through an affine layer into a common space of width 640,
      fp[b,t,j] = Σ_e f[b,t,e]·We[e,j] + be[j],        gp[b,u,j] = Σ_p g[b,u,p]·Wp[p,j] + bp[j],
  every pair (t,u) of one batch entry is joined by a rectified sum, and the joined vector is sent through a last affine
  layer to the vocabulary:
      out[b,t,u,v] = Σ_j max(fp[b,t,j] + gp[b,u,j], 0)·Wo[j,v] + bo[v].
  The functions below spell these three layers at the shapes the programs use. `encRows` / `predRows` are the two
  first layers over the arrays with the batch and the sequence axis merged into one row axis (row b·256+t, row b·64+u),
  `encProj` / `predProj` the same over the rank-3 arrays; `joinBlock` is the last layer on one tile of 32 encoder
  steps of one batch entry, `join` on the whole array.
-/
import Idealize.ShloMosaic.PureOps.Ideal
import Idealize.ShloMosaic.Lib.ValueIdx

noncomputable section

open scoped BigOperators

namespace Cert.Joint

open Idealize.ShloMosaic Idealize.ShloMosaic.ValueIdx

/-- The encoder's affine layer on merged rows: row `r`, column `j` is Σ_e x[r,e]·w[e,j] + b[j]. -/
def encRows (x : (⟨2, ![1024, 1024]⟩ : Shape).Idx → EReal) (w : (⟨2, ![1024, 640]⟩ : Shape).Idx → EReal)
    (b : (⟨1, ![640]⟩ : Shape).Idx → EReal) : (⟨2, ![1024, 640]⟩ : Shape).Idx → EReal :=
  fun i => (∑ e : Fin 1024, x (ix2 (i 0) e) * w (ix2 e (i 1))) + b (ix1 (i 1))

/-- The prediction network's affine layer on merged rows: row `r`, column `j` is Σ_p x[r,p]·w[p,j] + b[j]. -/
def predRows (x : (⟨2, ![256, 640]⟩ : Shape).Idx → EReal) (w : (⟨2, ![640, 640]⟩ : Shape).Idx → EReal)
    (b : (⟨1, ![640]⟩ : Shape).Idx → EReal) : (⟨2, ![256, 640]⟩ : Shape).Idx → EReal :=
  fun i => (∑ p : Fin 640, x (ix2 (i 0) p) * w (ix2 p (i 1))) + b (ix1 (i 1))

/-- The encoder's affine layer: fp[b,t,j] = Σ_e f[b,t,e]·We[e,j] + be[j]. -/
def encProj (f : (⟨3, ![4, 256, 1024]⟩ : Shape).Idx → EReal) (We : (⟨2, ![1024, 640]⟩ : Shape).Idx → EReal)
    (be : (⟨1, ![640]⟩ : Shape).Idx → EReal) : (⟨3, ![4, 256, 640]⟩ : Shape).Idx → EReal :=
  fun i => (∑ e : Fin 1024, f (ix3 (i 0) (i 1) e) * We (ix2 e (i 2))) + be (ix1 (i 2))

/-- The prediction network's affine layer: gp[b,u,j] = Σ_p g[b,u,p]·Wp[p,j] + bp[j]. -/
def predProj (g : (⟨3, ![4, 64, 640]⟩ : Shape).Idx → EReal) (Wp : (⟨2, ![640, 640]⟩ : Shape).Idx → EReal)
    (bp : (⟨1, ![640]⟩ : Shape).Idx → EReal) : (⟨3, ![4, 64, 640]⟩ : Shape).Idx → EReal :=
  fun i => (∑ p : Fin 640, g (ix3 (i 0) (i 1) p) * Wp (ix2 p (i 2))) + bp (ix1 (i 2))

/-- The joint layer: out[b,t,u,v] = Σ_j max(fp[b,t,j] + gp[b,u,j], 0)·Wo[j,v] + bo[v]. -/
def join (fp : (⟨3, ![4, 256, 640]⟩ : Shape).Idx → EReal) (gp : (⟨3, ![4, 64, 640]⟩ : Shape).Idx → EReal)
    (Wo : (⟨2, ![640, 1025]⟩ : Shape).Idx → EReal) (bo : (⟨1, ![1025]⟩ : Shape).Idx → EReal) :
    (⟨4, ![4, 256, 64, 1025]⟩ : Shape).Idx → EReal :=
  fun i => (∑ j : Fin 640, max (fp (ix3 (i 0) (i 1) j) + gp (ix3 (i 0) (i 2) j)) 0 * Wo (ix2 j (i 3))) + bo (ix1 (i 3))

/-- The joint layer on ONE tile — 32 encoder steps of one batch entry against that entry's 64 prediction steps —
    from the tile of `fp` and the slab of `gp`: entry (0,t,u,v) is Σ_j max(x[0,t,j] + y[0,u,j], 0)·Wo[j,v] + bo[v]. -/
def joinBlock (x : (⟨3, ![1, 32, 640]⟩ : Shape).Idx → EReal) (y : (⟨3, ![1, 64, 640]⟩ : Shape).Idx → EReal)
    (Wo : (⟨2, ![640, 1025]⟩ : Shape).Idx → EReal) (bo : (⟨1, ![1025]⟩ : Shape).Idx → EReal) :
    (⟨4, ![1, 32, 64, 1025]⟩ : Shape).Idx → EReal :=
  fun i => (∑ j : Fin 640, max (x (ix3 0 (i 1) j) + y (ix3 0 (i 2) j)) 0 * Wo (ix2 j (i 3))) + bo (ix1 (i 3))

/-- The whole network: the joint layer over the two affine layers. -/
def logits (f : (⟨3, ![4, 256, 1024]⟩ : Shape).Idx → EReal) (g : (⟨3, ![4, 64, 640]⟩ : Shape).Idx → EReal)
    (We : (⟨2, ![1024, 640]⟩ : Shape).Idx → EReal) (be : (⟨1, ![640]⟩ : Shape).Idx → EReal)
    (Wp : (⟨2, ![640, 640]⟩ : Shape).Idx → EReal) (bp : (⟨1, ![640]⟩ : Shape).Idx → EReal)
    (Wo : (⟨2, ![640, 1025]⟩ : Shape).Idx → EReal) (bo : (⟨1, ![1025]⟩ : Shape).Idx → EReal) :
    (⟨4, ![4, 256, 64, 1025]⟩ : Shape).Idx → EReal :=
  join (encProj f We be) (predProj g Wp bp) Wo bo

/-- The half-precision zero pattern denotes the real number zero. -/
theorem ofBits_zero_bf16 : Ideal.ofBits .bf16 0x0000#16 = 0 := by simp [Ideal.ofBits, Ideal.ieee]

end Cert.Joint

end
-- ==== Proof.SpecLaws.lean ====
/-
  Congruence of the specification's layers: an entry of a layer depends only on one row of each operand, so two
  readings of a layer agree at two indices as soon as the rows they read agree entry by entry. These are what joins a
  block of an array, read at an index of the block, to the whole array read at the index the block's entry sits at; and
  what joins the affine layers on merged rows to the layers on the rank-3 arrays.
-/
import proofs.«104840_j48172353192301_1_alg».proof.Proof.Spec

noncomputable section

open scoped BigOperators

namespace Cert.Joint

open Idealize.ShloMosaic Idealize.ShloMosaic.ValueIdx

/-- Two readings of the encoder layer on merged rows agree when the rows of `x`, the columns of `w` and the bias
    entries they read agree. -/
theorem encRows_congr {x x' : (⟨2, ![1024, 1024]⟩ : Shape).Idx → EReal} {w w' : (⟨2, ![1024, 640]⟩ : Shape).Idx → EReal}
    {b b' : (⟨1, ![640]⟩ : Shape).Idx → EReal} (i i' : (⟨2, ![1024, 640]⟩ : Shape).Idx)
    (hx : ∀ e : Fin 1024, x (ix2 (i 0) e) = x' (ix2 (i' 0) e)) (hw : ∀ e : Fin 1024, w (ix2 e (i 1)) = w' (ix2 e (i' 1)))
    (hb : b (ix1 (i 1)) = b' (ix1 (i' 1))) : encRows x w b i = encRows x' w' b' i' := by
  unfold encRows
  simp only [hx, hw, hb]

/-- The same for the prediction network's layer. -/
theorem predRows_congr {x x' : (⟨2, ![256, 640]⟩ : Shape).Idx → EReal} {w w' : (⟨2, ![640, 640]⟩ : Shape).Idx → EReal}
    {b b' : (⟨1, ![640]⟩ : Shape).Idx → EReal} (i i' : (⟨2, ![256, 640]⟩ : Shape).Idx)
    (hx : ∀ p : Fin 640, x (ix2 (i 0) p) = x' (ix2 (i' 0) p)) (hw : ∀ p : Fin 640, w (ix2 p (i 1)) = w' (ix2 p (i' 1)))
    (hb : b (ix1 (i 1)) = b' (ix1 (i' 1))) : predRows x w b i = predRows x' w' b' i' := by
  unfold predRows
  simp only [hx, hw, hb]

/-- The joint layer on a tile, at an index of the tile, is the joint layer on the whole arrays at the index the tile's
    entry sits at, when the tile's rows are the arrays' rows there. -/
theorem joinBlock_eq_join {x : (⟨3, ![1, 32, 640]⟩ : Shape).Idx → EReal} {y : (⟨3, ![1, 64, 640]⟩ : Shape).Idx → EReal}
    {Wo Wo' : (⟨2, ![640, 1025]⟩ : Shape).Idx → EReal} {bo bo' : (⟨1, ![1025]⟩ : Shape).Idx → EReal}
    {fp : (⟨3, ![4, 256, 640]⟩ : Shape).Idx → EReal} {gp : (⟨3, ![4, 64, 640]⟩ : Shape).Idx → EReal}
    (i : (⟨4, ![1, 32, 64, 1025]⟩ : Shape).Idx) (i' : (⟨4, ![4, 256, 64, 1025]⟩ : Shape).Idx)
    (hx : ∀ j : Fin 640, x (ix3 0 (i 1) j) = fp (ix3 (i' 0) (i' 1) j))
    (hy : ∀ j : Fin 640, y (ix3 0 (i 2) j) = gp (ix3 (i' 0) (i' 2) j))
    (hw : ∀ j : Fin 640, Wo (ix2 j (i 3)) = Wo' (ix2 j (i' 3))) (hb : bo (ix1 (i 3)) = bo' (ix1 (i' 3))) :
    joinBlock x y Wo bo i = join fp gp Wo' bo' i' := by
  unfold joinBlock join
  simp only [hx, hy, hw, hb]

/-- The encoder layer on merged rows, at row b·256+t, is the encoder layer on the rank-3 array at (b,t), when the
    merged array's row b·256+t is the rank-3 array's row (b,t). -/
theorem encRows_eq_encProj {rows : (⟨2, ![1024, 1024]⟩ : Shape).Idx → EReal} {f : (⟨3, ![4, 256, 1024]⟩ : Shape).Idx → EReal}
    (We : (⟨2, ![1024, 640]⟩ : Shape).Idx → EReal) (be : (⟨1, ![640]⟩ : Shape).Idx → EReal)
    (k : (⟨2, ![1024, 640]⟩ : Shape).Idx) (i : (⟨3, ![4, 256, 640]⟩ : Shape).Idx) (hk : k 1 = i 2)
    (hrows : ∀ e : Fin 1024, rows (ix2 (k 0) e) = f (ix3 (i 0) (i 1) e)) : encRows rows We be k = encProj f We be i := by
  unfold encRows encProj
  simp only [hrows, hk]

/-- The same for the prediction network's layer, row b·64+u against (b,u). -/
theorem predRows_eq_predProj {rows : (⟨2, ![256, 640]⟩ : Shape).Idx → EReal} {g : (⟨3, ![4, 64, 640]⟩ : Shape).Idx → EReal}
    (Wp : (⟨2, ![640, 640]⟩ : Shape).Idx → EReal) (bp : (⟨1, ![640]⟩ : Shape).Idx → EReal)
    (k : (⟨2, ![256, 640]⟩ : Shape).Idx) (i : (⟨3, ![4, 64, 640]⟩ : Shape).Idx) (hk : k 1 = i 2)
    (hrows : ∀ p : Fin 640, rows (ix2 (k 0) p) = g (ix3 (i 0) (i 1) p)) : predRows rows Wp bp k = predProj g Wp bp i := by
  unfold predRows predProj
  simp only [hrows, hk]

end Cert.Joint

end
-- ==== Proof.LinearBody.lean ====
/-
  The two small kernels, read at an index: each leaves in its output buffer the affine layer of its three loaded
  blocks — a matrix product into a zero accumulator is the plain sum Σ_k x[r,k]·w[k,j], and the bias row is broadcast
  down the rows.
-/
import proofs.«104840_j48172353192301_1_alg».proof.Proof.Spec
import proofs.«104840_j48172353192301_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Joint

/-! ## Offsets

Each kernel loads and stores whole blocks: every rectangle sits at the zero offset. -/

/-- The rank-2 zero offset is the constant zero. -/
theorem zero_off2 : (![0, 0] : Fin 2 → Nat) = fun _ => 0 := funext fun a => by fin_cases a <;> rfl

/-- The rank-1 zero offset is the constant zero. -/
theorem zero_off1 : (![0] : Fin 1 → Nat) = fun _ => 0 := funext fun a => by fin_cases a <;> rfl

/-! ## The first kernel's product, [1024,1024] × [1024,640]

The dimension numbers contract the left operand's axis 1 with the right operand's axis 0 and batch nothing, so at
the output index (r, j) and the contraction position k the left operand is read at (r, k) and the right one at
(k, j). The four coordinates, one lemma each. -/

/-- Left operand, axis 0: the output's row. -/
theorem enc_lhs_0 (i : S1024x640.Idx) (q : dot_S1024x1024_S1024x640_S1024x640_1_0_0_1_n_n.contr.Idx) :
    (dot_S1024x1024_S1024x640_S1024x640_1_0_0_1_n_n.lhsIdx i q 0).val = (i 0).val := by
  unfold DotDims.lhsIdx
  rw [dif_neg (show ¬(0 : Fin S1024x1024.rank) ∈ dot_S1024x1024_S1024x640_S1024x640_1_0_0_1_n_n.lhsBatch by decide),
    dif_pos (show (0 : Fin S1024x1024.rank) ∈ dot_S1024x1024_S1024x640_S1024x640_1_0_0_1_n_n.lhsNonContracting by decide)]
  rfl

/-- Left operand, axis 1: the contraction position. -/
theorem enc_lhs_1 (i : S1024x640.Idx) (q : dot_S1024x1024_S1024x640_S1024x640_1_0_0_1_n_n.contr.Idx) :
    (dot_S1024x1024_S1024x640_S1024x640_1_0_0_1_n_n.lhsIdx i q 1).val = (q ⟨0, by decide⟩).val :=
  dot_S1024x1024_S1024x640_S1024x640_1_0_0_1_n_n.lhsIdx_val_of_single rfl i q

/-- Right operand, axis 0: the contraction position. -/
theorem enc_rhs_0 (i : S1024x640.Idx) (q : dot_S1024x1024_S1024x640_S1024x640_1_0_0_1_n_n.contr.Idx) :
    (dot_S1024x1024_S1024x640_S1024x640_1_0_0_1_n_n.rhsIdx i q 0).val = (q ⟨0, by decide⟩).val :=
  dot_S1024x1024_S1024x640_S1024x640_1_0_0_1_n_n.rhsIdx_val_of_single rfl i q

/-- Right operand, axis 1: the output's column. -/
theorem enc_rhs_1 (i : S1024x640.Idx) (q : dot_S1024x1024_S1024x640_S1024x640_1_0_0_1_n_n.contr.Idx) :
    (dot_S1024x1024_S1024x640_S1024x640_1_0_0_1_n_n.rhsIdx i q 1).val = (i 1).val := by
  unfold DotDims.rhsIdx
  rw [dif_neg (show ¬(1 : Fin S1024x640.rank) ∈ dot_S1024x1024_S1024x640_S1024x640_1_0_0_1_n_n.rhsBatch by decide),
    dif_pos (show (1 : Fin S1024x640.rank) ∈ dot_S1024x1024_S1024x640_S1024x640_1_0_0_1_n_n.rhsNonContracting by decide)]
  rfl

/-- The product into the zero accumulator, at (r, j): Σ_k a[r,k]·b[k,j]. The accumulator contributes the real
    number zero; the sum over the one-axis contraction shape is re-indexed by that axis' coordinate. -/
theorem enc_product_apply (a : FVec Ideal S1024x1024 .f32) (b : FVec Ideal S1024x640 .f32) (r : Fin 1024) (j : Fin 640) :
    matmul dot_S1024x1024_S1024x640_S1024x640_1_0_0_1_n_n none a b (constant (F := Ideal) S1024x640 .f32 0x00000000#32) (ix2 r j)
      = ∑ k : Fin 1024, a (ix2 r k) * b (ix2 k j) := by
  show FloatOps.matmul dot_S1024x1024_S1024x640_S1024x640_1_0_0_1_n_n none a b
    (constant (F := Ideal) S1024x640 .f32 0x00000000#32) (ix2 r j) = _
  rw [Ideal.matmul_constant_zero_apply,
    ← Equiv.sum_comp (contrEquiv1 dot_S1024x1024_S1024x640_S1024x640_1_0_0_1_n_n 1024 rfl rfl).symm]
  refine Finset.sum_congr rfl fun k _ => ?_
  have hk := contrEquiv1_symm_val dot_S1024x1024_S1024x640_S1024x640_1_0_0_1_n_n 1024 rfl rfl k
  have el : dot_S1024x1024_S1024x640_S1024x640_1_0_0_1_n_n.lhsIdx (ix2 r j)
      ((contrEquiv1 dot_S1024x1024_S1024x640_S1024x640_1_0_0_1_n_n 1024 rfl rfl).symm k) = ix2 r k :=
    funext fun ax => Fin.ext (by
      match ax with
      | ⟨0, _⟩ => exact enc_lhs_0 _ _
      | ⟨1, _⟩ => exact (enc_lhs_1 _ _).trans hk)
  have er : dot_S1024x1024_S1024x640_S1024x640_1_0_0_1_n_n.rhsIdx (ix2 r j)
      ((contrEquiv1 dot_S1024x1024_S1024x640_S1024x640_1_0_0_1_n_n 1024 rfl rfl).symm k) = ix2 k j :=
    funext fun ax => Fin.ext (by
      match ax with
      | ⟨0, _⟩ => exact (enc_rhs_0 _ _).trans hk
      | ⟨1, _⟩ => exact enc_rhs_1 _ _)
  rw [el, er]

/-- What the first kernel stores: row `r`, column `j` is Σ_e x0[r,e]·x1[e,j] + x2[j]. -/
theorem out0_3_eq (x0 : Vec Ideal S1024x1024 .f32) (x1 : Vec Ideal S1024x640 .f32) (x2 : Vec Ideal S640 .f32) :
    out0_3 (F := Ideal) x0 x1 x2 = encRows x0 x1 x2 := by
  -- one store over the whole block leaves its payload, and each whole-block load reads its operand
  unfold out0_3
  rw [View.canon_unit_zero zero_off2]
  simp only [View.ld_unit_zero (S := S1024x1024) zero_off2, View.ld_unit_zero (S := S1024x640) zero_off2,
    View.ld_unit_zero (S := S640) zero_off1]
  -- at (r, j): the sum is pointwise, the cast to the same shape is the identity, the product is the plain sum, and
  -- the bias, cast to one row and broadcast down the rows, is read at its column
  funext i
  obtain ⟨r, j, rfl⟩ : ∃ (r : Fin 1024) (j : Fin 640), i = ix2 r j := ⟨i 0, i 1, eq_ix2 i⟩
  unfold k0_pay1
  rw [addf_apply, shapeCast_self, enc_product_apply, broadcastTo_1b_ab_apply, shapeCast_a_1a_apply]
  rfl

/-! ## The second kernel's product, [256,640] × [640,640]

The same dimension numbers at other extents: at (r, j) and contraction position k the operands are read at (r, k)
and (k, j). -/

/-- Left operand, axis 0: the output's row. -/
theorem pred_lhs_0 (i : S256x640.Idx) (q : dot_S256x640_S640x640_S256x640_1_0_0_1_n_n.contr.Idx) :
    (dot_S256x640_S640x640_S256x640_1_0_0_1_n_n.lhsIdx i q 0).val = (i 0).val := by
  unfold DotDims.lhsIdx
  rw [dif_neg (show ¬(0 : Fin S256x640.rank) ∈ dot_S256x640_S640x640_S256x640_1_0_0_1_n_n.lhsBatch by decide),
    dif_pos (show (0 : Fin S256x640.rank) ∈ dot_S256x640_S640x640_S256x640_1_0_0_1_n_n.lhsNonContracting by decide)]
  rfl

/-- Left operand, axis 1: the contraction position. -/
theorem pred_lhs_1 (i : S256x640.Idx) (q : dot_S256x640_S640x640_S256x640_1_0_0_1_n_n.contr.Idx) :
    (dot_S256x640_S640x640_S256x640_1_0_0_1_n_n.lhsIdx i q 1).val = (q ⟨0, by decide⟩).val :=
  dot_S256x640_S640x640_S256x640_1_0_0_1_n_n.lhsIdx_val_of_single rfl i q

/-- Right operand, axis 0: the contraction position. -/
theorem pred_rhs_0 (i : S256x640.Idx) (q : dot_S256x640_S640x640_S256x640_1_0_0_1_n_n.contr.Idx) :
    (dot_S256x640_S640x640_S256x640_1_0_0_1_n_n.rhsIdx i q 0).val = (q ⟨0, by decide⟩).val :=
  dot_S256x640_S640x640_S256x640_1_0_0_1_n_n.rhsIdx_val_of_single rfl i q

/-- Right operand, axis 1: the output's column. -/
theorem pred_rhs_1 (i : S256x640.Idx) (q : dot_S256x640_S640x640_S256x640_1_0_0_1_n_n.contr.Idx) :
    (dot_S256x640_S640x640_S256x640_1_0_0_1_n_n.rhsIdx i q 1).val = (i 1).val := by
  unfold DotDims.rhsIdx
  rw [dif_neg (show ¬(1 : Fin S640x640.rank) ∈ dot_S256x640_S640x640_S256x640_1_0_0_1_n_n.rhsBatch by decide),
    dif_pos (show (1 : Fin S640x640.rank) ∈ dot_S256x640_S640x640_S256x640_1_0_0_1_n_n.rhsNonContracting by decide)]
  rfl

/-- The product into the zero accumulator, at (r, j): Σ_k a[r,k]·b[k,j]. -/
theorem pred_product_apply (a : FVec Ideal S256x640 .f32) (b : FVec Ideal S640x640 .f32) (r : Fin 256) (j : Fin 640) :
    matmul dot_S256x640_S640x640_S256x640_1_0_0_1_n_n none a b (constant (F := Ideal) S256x640 .f32 0x00000000#32) (ix2 r j)
      = ∑ k : Fin 640, a (ix2 r k) * b (ix2 k j) := by
  show FloatOps.matmul dot_S256x640_S640x640_S256x640_1_0_0_1_n_n none a b
    (constant (F := Ideal) S256x640 .f32 0x00000000#32) (ix2 r j) = _
  rw [Ideal.matmul_constant_zero_apply,
    ← Equiv.sum_comp (contrEquiv1 dot_S256x640_S640x640_S256x640_1_0_0_1_n_n 640 rfl rfl).symm]
  refine Finset.sum_congr rfl fun k _ => ?_
  have hk := contrEquiv1_symm_val dot_S256x640_S640x640_S256x640_1_0_0_1_n_n 640 rfl rfl k
  have el : dot_S256x640_S640x640_S256x640_1_0_0_1_n_n.lhsIdx (ix2 r j)
      ((contrEquiv1 dot_S256x640_S640x640_S256x640_1_0_0_1_n_n 640 rfl rfl).symm k) = ix2 r k :=
    funext fun ax => Fin.ext (by
      match ax with
      | ⟨0, _⟩ => exact pred_lhs_0 _ _
      | ⟨1, _⟩ => exact (pred_lhs_1 _ _).trans hk)
  have er : dot_S256x640_S640x640_S256x640_1_0_0_1_n_n.rhsIdx (ix2 r j)
      ((contrEquiv1 dot_S256x640_S640x640_S256x640_1_0_0_1_n_n 640 rfl rfl).symm k) = ix2 k j :=
    funext fun ax => Fin.ext (by
      match ax with
      | ⟨0, _⟩ => exact (pred_rhs_0 _ _).trans hk
      | ⟨1, _⟩ => exact pred_rhs_1 _ _)
  rw [el, er]

/-- What the second kernel stores: row `r`, column `j` is Σ_p x0[r,p]·x1[p,j] + x2[j]. -/
theorem out1_3_eq (x0 : Vec Ideal S256x640 .f32) (x1 : Vec Ideal S640x640 .f32) (x2 : Vec Ideal S640 .f32) :
    out1_3 (F := Ideal) x0 x1 x2 = predRows x0 x1 x2 := by
  unfold out1_3
  rw [View.canon_unit_zero zero_off2]
  simp only [View.ld_unit_zero (S := S256x640) zero_off2, View.ld_unit_zero (S := S640x640) zero_off2,
    View.ld_unit_zero (S := S640) zero_off1]
  funext i
  obtain ⟨r, j, rfl⟩ : ∃ (r : Fin 256) (j : Fin 640), i = ix2 r j := ⟨i 0, i 1, eq_ix2 i⟩
  unfold k1_pay1
  rw [addf_apply, shapeCast_self, pred_product_apply, broadcastTo_1b_ab_apply, shapeCast_a_1a_apply]
  rfl

end Cert.KernelIdeal.Body

end
-- ==== Proof.JointBody.lean ====
/-
  The joint kernel, read at an index: from a tile of the encoder projection, the batch entry's slab of the prediction
  projection, the output weights and the output bias it stores, at (0,t,u,v), Σ_j max(x0[0,t,j] + x1[0,u,j], 0)·x2[j,v] + x3[v].
  The changes of float format are the identity on the extended reals, the two broadcasts copy a row along the new axis,
  the merge of (t,u) into one row axis of 2048 and its split back are inverse re-indexings, and the matrix product into a
  zero accumulator is the plain sum over j.
-/
import proofs.«104840_j48172353192301_1_alg».proof.Proof.Spec
import proofs.«104840_j48172353192301_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Joint

/-! ## The layout operations, one by one, at coordinates -/

/-- Row `t·64+u` of the merged row axis: the pair (t,u) in row-major order. -/
abbrev jointRow (t : Fin 32) (u : Fin 64) : Fin 2048 :=
  ⟨t.val * 64 + u.val, by have := t.isLt; have := u.isLt; omega⟩

/-- The encoder tile, its unit axis dropped, narrowed, given a unit middle axis and copied along it: entry (t,u,j) is
    the tile's (0,t,j), whatever u. -/
theorem joint_encCopy_apply (x0 : Vec Ideal S1x32x640 .f32) (t : Fin 32) (u : Fin 64) (j : Fin 640) :
    (broadcastTo S32x64x640 (shapeCast S32x1x640 (truncf (F := Ideal) .bf16 (shapeCast S32x640 x0 shapeCasts_S1x32x640_S32x640) bitsLt_bf16_f32)
      shapeCasts_S32x640_S32x1x640) broadcasts_S32x1x640_S32x64x640 (ix3 t u j) : EReal) = x0 (ix3 0 t j) := by
  refine (broadcastTo_apply _ _ _ (ix3 t 0 j) (fun a => match a with
    | ⟨0, _⟩ => by show t.val = if (32 : Nat) = 1 then 0 else t.val; rfl
    | ⟨1, _⟩ => by show (0 : Nat) = if (1 : Nat) = 1 then 0 else u.val; rfl
    | ⟨2, _⟩ => by show j.val = if (640 : Nat) = 1 then 0 else j.val; rfl)).trans ?_
  refine (shapeCast_apply _ _ _ (ix2 t j) (by
    rw [Shape.rowMajor_val_two, Shape.rowMajor_val_three]
    show t.val * 640 + j.val = (t.val * 1 + 0) * 640 + j.val
    omega)).trans ?_
  show shapeCast S32x640 x0 shapeCasts_S1x32x640_S32x640 (ix2 t j) = _
  exact shapeCast_apply _ _ _ (ix3 0 t j) (by
    rw [Shape.rowMajor_val_three, Shape.rowMajor_val_two]
    show (0 * 32 + t.val) * 640 + j.val = t.val * 640 + j.val
    omega)

/-- The prediction slab, its unit axis dropped, narrowed, the unit axis put back and copied along it: entry (t,u,j) is
    the slab's (0,u,j), whatever t. -/
theorem joint_predCopy_apply (x1 : Vec Ideal S1x64x640 .f32) (t : Fin 32) (u : Fin 64) (j : Fin 640) :
    (broadcastTo S32x64x640 (shapeCast S1x64x640 (truncf (F := Ideal) .bf16 (shapeCast S64x640 x1 shapeCasts_S1x64x640_S64x640) bitsLt_bf16_f32)
      shapeCasts_S64x640_S1x64x640) broadcasts_S1x64x640_S32x64x640 (ix3 t u j) : EReal) = x1 (ix3 0 u j) := by
  refine (broadcastTo_apply _ _ _ (ix3 0 u j) (fun a => match a with
    | ⟨0, _⟩ => by show (0 : Nat) = if (1 : Nat) = 1 then 0 else t.val; rfl
    | ⟨1, _⟩ => by show u.val = if (64 : Nat) = 1 then 0 else u.val; rfl
    | ⟨2, _⟩ => by show j.val = if (640 : Nat) = 1 then 0 else j.val; rfl)).trans ?_
  refine (shapeCast_apply _ _ _ (ix2 u j) (by
    rw [Shape.rowMajor_val_two, Shape.rowMajor_val_three]
    show u.val * 640 + j.val = (0 * 64 + u.val) * 640 + j.val
    omega)).trans ?_
  show shapeCast S64x640 x1 shapeCasts_S1x64x640_S64x640 (ix2 u j) = _
  exact shapeCast_apply _ _ _ (ix3 0 u j) (by
    rw [Shape.rowMajor_val_three, Shape.rowMajor_val_two]
    show (0 * 64 + u.val) * 640 + j.val = u.val * 640 + j.val
    omega)

/-- The merge of (t,u) into one row axis: row t·64+u, column j of the merged array is entry (t,u,j). -/
theorem joint_merge_apply (w : FVec Ideal S32x64x640 .bf16) (t : Fin 32) (u : Fin 64) (j : Fin 640) :
    shapeCast S2048x640 w shapeCasts_S32x64x640_S2048x640 (ix2 (jointRow t u) j) = w (ix3 t u j) :=
  shapeCast_apply _ _ _ (ix3 t u j) (by
    rw [Shape.rowMajor_val_three, Shape.rowMajor_val_two]
    show (t.val * 64 + u.val) * 640 + j.val = (t.val * 64 + u.val) * 640 + j.val
    rfl)

/-- The split of the row axis back into (t,u): entry (t,u,v) is row t·64+u, column v. -/
theorem joint_split_apply (w : FVec Ideal S2048x1025 .f32) (t : Fin 32) (u : Fin 64) (v : Fin 1025) :
    shapeCast S32x64x1025 w shapeCasts_S2048x1025_S32x64x1025 (ix3 t u v) = w (ix2 (jointRow t u) v) :=
  shapeCast_apply _ _ _ (ix2 (jointRow t u) v) (by
    rw [Shape.rowMajor_val_two, Shape.rowMajor_val_three]
    show (t.val * 64 + u.val) * 1025 + v.val = (t.val * 64 + u.val) * 1025 + v.val
    rfl)

/-- The bias given two unit axes and copied along them: entry (t,u,v) is the bias at v. -/
theorem joint_biasCopy_apply (x3 : Vec Ideal S1025 .f32) (t : Fin 32) (u : Fin 64) (v : Fin 1025) :
    broadcastTo S32x64x1025 (shapeCast S1x1x1025 x3 shapeCasts_S1025_S1x1x1025) broadcasts_S1x1x1025_S32x64x1025 (ix3 t u v)
      = x3 (ix1 v) := by
  refine (broadcastTo_apply _ _ _ (ix3 0 0 v) (fun a => match a with
    | ⟨0, _⟩ => by show (0 : Nat) = if (1 : Nat) = 1 then 0 else t.val; rfl
    | ⟨1, _⟩ => by show (0 : Nat) = if (1 : Nat) = 1 then 0 else u.val; rfl
    | ⟨2, _⟩ => by show v.val = if (1025 : Nat) = 1 then 0 else v.val; rfl)).trans ?_
  exact shapeCast_apply _ _ _ (ix1 v) (by
    rw [Shape.rowMajor_val_one, Shape.rowMajor_val_three]
    show v.val = (0 * 1 + 0) * 1025 + v.val
    omega)

/-- The leading unit axis put on the result: entry (0,t,u,v) is entry (t,u,v). -/
theorem joint_addLead_apply (w : FVec Ideal S32x64x1025 .f32) (t : Fin 32) (u : Fin 64) (v : Fin 1025) :
    shapeCast S1x32x64x1025 w shapeCasts_S32x64x1025_S1x32x64x1025 (ix4 0 t u v) = w (ix3 t u v) :=
  shapeCast_apply _ _ _ (ix3 t u v) (by
    rw [Shape.rowMajor_val_three, Shape.rowMajor_val_four]
    show (t.val * 64 + u.val) * 1025 + v.val = (((0 * 32 + t.val) * 64 + u.val) * 1025) + v.val
    omega)

/-! ## The matrix product at an index -/

/-- The left operand's row is the result's row … -/
theorem joint_lhs_0 (i : S2048x1025.Idx) (q : dot_S2048x640_S640x1025_S2048x1025_1_0_0_1_n_n.contr.Idx) :
    (dot_S2048x640_S640x1025_S2048x1025_1_0_0_1_n_n.lhsIdx i q 0).val = (i 0).val := by
  unfold DotDims.lhsIdx
  rw [dif_neg (show ¬(0 : Fin S2048x640.rank) ∈ dot_S2048x640_S640x1025_S2048x1025_1_0_0_1_n_n.lhsBatch by decide), dif_pos (show (0 : Fin S2048x640.rank) ∈ dot_S2048x640_S640x1025_S2048x1025_1_0_0_1_n_n.lhsNonContracting by decide)]
  rfl
/-- … its column the contraction position … -/
theorem joint_lhs_1 (i : S2048x1025.Idx) (q : dot_S2048x640_S640x1025_S2048x1025_1_0_0_1_n_n.contr.Idx) :
    (dot_S2048x640_S640x1025_S2048x1025_1_0_0_1_n_n.lhsIdx i q 1).val = (q ⟨0, by decide⟩).val :=
  dot_S2048x640_S640x1025_S2048x1025_1_0_0_1_n_n.lhsIdx_val_of_single rfl i q
/-- … which is also the right operand's row … -/
theorem joint_rhs_0 (i : S2048x1025.Idx) (q : dot_S2048x640_S640x1025_S2048x1025_1_0_0_1_n_n.contr.Idx) :
    (dot_S2048x640_S640x1025_S2048x1025_1_0_0_1_n_n.rhsIdx i q 0).val = (q ⟨0, by decide⟩).val :=
  dot_S2048x640_S640x1025_S2048x1025_1_0_0_1_n_n.rhsIdx_val_of_single rfl i q
/-- … and the right operand's column is the result's column. -/
theorem joint_rhs_1 (i : S2048x1025.Idx) (q : dot_S2048x640_S640x1025_S2048x1025_1_0_0_1_n_n.contr.Idx) :
    (dot_S2048x640_S640x1025_S2048x1025_1_0_0_1_n_n.rhsIdx i q 1).val = (i 1).val := by
  unfold DotDims.rhsIdx
  rw [dif_neg (show ¬(1 : Fin S640x1025.rank) ∈ dot_S2048x640_S640x1025_S2048x1025_1_0_0_1_n_n.rhsBatch by decide), dif_pos (show (1 : Fin S640x1025.rank) ∈ dot_S2048x640_S640x1025_S2048x1025_1_0_0_1_n_n.rhsNonContracting by decide)]
  rfl

/-- The product of a [2048,640] by a [640,1025] matrix into the zero accumulator: entry (r,v) is Σ_j a[r,j]·b[j,v]. -/
theorem joint_product_apply (a : FVec Ideal S2048x640 .bf16) (b : FVec Ideal S640x1025 .bf16) (r : Fin 2048) (v : Fin 1025) :
    matmul dot_S2048x640_S640x1025_S2048x1025_1_0_0_1_n_n none a b (constant (F := Ideal) S2048x1025 .f32 0x00000000#32) (ix2 r v)
      = ∑ j : Fin 640, a (ix2 r j) * b (ix2 j v) := by
  refine (Ideal.matmul_constant_zero_apply dot_S2048x640_S640x1025_S2048x1025_1_0_0_1_n_n none a b (ix2 r v)).trans ?_
  rw [← Equiv.sum_comp (contrEquiv1 dot_S2048x640_S640x1025_S2048x1025_1_0_0_1_n_n 640 rfl rfl).symm]
  refine Finset.sum_congr rfl fun k _ => ?_
  have hk := contrEquiv1_symm_val dot_S2048x640_S640x1025_S2048x1025_1_0_0_1_n_n 640 rfl rfl k
  have el : dot_S2048x640_S640x1025_S2048x1025_1_0_0_1_n_n.lhsIdx (ix2 r v) ((contrEquiv1 dot_S2048x640_S640x1025_S2048x1025_1_0_0_1_n_n 640 rfl rfl).symm k) = ix2 r k := funext fun c => Fin.ext (by
    match c with
    | ⟨0, _⟩ => exact joint_lhs_0 _ _
    | ⟨1, _⟩ => exact (joint_lhs_1 _ _).trans hk)
  have er : dot_S2048x640_S640x1025_S2048x1025_1_0_0_1_n_n.rhsIdx (ix2 r v) ((contrEquiv1 dot_S2048x640_S640x1025_S2048x1025_1_0_0_1_n_n 640 rfl rfl).symm k) = ix2 k v := funext fun c => Fin.ext (by
    match c with
    | ⟨0, _⟩ => exact (joint_rhs_0 _ _).trans hk
    | ⟨1, _⟩ => exact joint_rhs_1 _ _)
  rw [el, er]

/-! ## The payload at an index, and the block -/

/-- The rectified sum of the two copies: entry (t,u,j) is max(x0[0,t,j] + x1[0,u,j], 0). -/
theorem joint_relu_apply (x0 : Vec Ideal S1x32x640 .f32) (x1 : Vec Ideal S1x64x640 .f32) (t : Fin 32) (u : Fin 64) (j : Fin 640) :
    maximumf
      (addf
        (broadcastTo S32x64x640 (shapeCast S32x1x640 (truncf (F := Ideal) .bf16 (shapeCast S32x640 x0 shapeCasts_S1x32x640_S32x640) bitsLt_bf16_f32)
          shapeCasts_S32x640_S32x1x640) broadcasts_S32x1x640_S32x64x640)
        (broadcastTo S32x64x640 (shapeCast S1x64x640 (truncf (F := Ideal) .bf16 (shapeCast S64x640 x1 shapeCasts_S1x64x640_S64x640) bitsLt_bf16_f32)
          shapeCasts_S64x640_S1x64x640) broadcasts_S1x64x640_S32x64x640))
      (broadcast S32x64x640 (Scalar.ofBits (F := Ideal) .bf16 0x0000#16)) (ix3 t u j)
      = max (x0 (ix3 0 t j) + x1 (ix3 0 u j)) 0 := by
  rw [maximumf_apply, addf_apply, joint_encCopy_apply, joint_predCopy_apply, broadcast_apply]
  exact congrArg (max _) ofBits_zero_bf16

/-- The kernel's payload at (0,t,u,v). -/
theorem joint_payload_apply (x0 : Vec Ideal S1x32x640 .f32) (x1 : Vec Ideal S1x64x640 .f32) (x2 : Vec Ideal S640x1025 .f32) (x3 : Vec Ideal S1025 .f32)
    (t : Fin 32) (u : Fin 64) (v : Fin 1025) :
    k2_pay1 (F := Ideal) x0 x1 x2 x3 (ix4 0 t u v)
      = (∑ j : Fin 640, max (x0 (ix3 0 t j) + x1 (ix3 0 u j)) 0 * x2 (ix2 j v)) + x3 (ix1 v) := by
  unfold k2_pay1
  refine (joint_addLead_apply _ t u v).trans ?_
  rw [addf_apply, joint_split_apply, joint_biasCopy_apply, joint_product_apply]
  refine congrArg (· + x3 (ix1 v)) (Finset.sum_congr rfl fun j _ => ?_)
  rw [joint_merge_apply, joint_relu_apply]
  rfl

/-- The whole rectangles start at offset zero on every axis. -/
theorem joint_off1 : (![0] : Fin 1 → Nat) = fun _ => 0 := funext fun a => by fin_cases a <;> rfl
theorem joint_off2 : (![0, 0] : Fin 2 → Nat) = fun _ => 0 := funext fun a => by fin_cases a <;> rfl
theorem joint_off3 : (![0, 0, 0] : Fin 3 → Nat) = fun _ => 0 := funext fun a => by fin_cases a <;> rfl
theorem joint_off4 : (![0, 0, 0, 0] : Fin 4 → Nat) = fun _ => 0 := funext fun a => by fin_cases a <;> rfl

/-- What the joint kernel stores, index by index. -/
theorem out2_4_eq (x0 : Vec Ideal S1x32x640 .f32) (x1 : Vec Ideal S1x64x640 .f32) (x2 : Vec Ideal S640x1025 .f32) (x3 : Vec Ideal S1025 .f32) :
    out2_4 (F := Ideal) x0 x1 x2 x3 = joinBlock x0 x1 x2 x3 := by
  unfold out2_4
  rw [View.canon_unit_zero joint_off4]
  simp only [View.ld_unit_zero (S := S1x32x640) joint_off3, View.ld_unit_zero (S := S1x64x640) joint_off3,
    View.ld_unit_zero (S := S640x1025) joint_off2, View.ld_unit_zero (S := S1025) joint_off1]
  funext i
  have h0 : @Eq (Fin 1) (i 0) 0 := Subsingleton.elim _ _
  obtain ⟨t, u, v, rfl⟩ : ∃ (t : Fin 32) (u : Fin 64) (v : Fin 1025), i = ix4 0 t u v :=
    ⟨i 1, i 2, i 3, (eq_ix4 i).trans (congrArg (fun z : Fin 1 => ix4 z (i 1) (i 2) (i 3)) h0)⟩
  exact joint_payload_apply x0 x1 x2 x3 t u v

end Cert.KernelIdeal.Body

end
-- ==== Proof.Arrays.lean ====
/-
  From blocks to arrays, for each of the three pipelines, at any contents `V` the pipeline is entered at.
  What a grid point writes back is the body's result on the point's input blocks; a block's entry sits in its array at
  (block index × block size + offset inside the block) on every axis; so, with the printed index maps decided once over
  the grid, the written block is the block of ONE whole-array function of the entry contents — the affine layer for the
  two one-point pipelines, the joint layer for the 4 × 8 grid, whose point (b, s) holds batch entry b and encoder steps
  32·s … 32·s+31 — and, the output's blocks covering its array, the array ends holding that function.
-/
import proofs.«104840_j48172353192301_1_alg».proof.Proof.SpecLaws
import proofs.«104840_j48172353192301_1_alg».proof.Proof.LinearBody
import proofs.«104840_j48172353192301_1_alg».proof.Proof.JointBody
import proofs.«104840_j48172353192301_1_alg».proof.Proof.Gen.KernelIdeal.Frame
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat Cfg Window)

namespace Cert.KernelIdeal.Arrays

open Cert.KernelIdeal Cert.KernelIdeal.Gen Cert.KernelIdeal.Body Cert.Joint

variable (V : (c : Dev nD) → (b : Ref sig .tc) → Buf (Elt Ideal) ((c : Thread nD τ).loc b))

/-! ## The encoder projection's array (one grid point, whole blocks) -/

theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- What the one grid point writes back is the (whole) block of the affine layer of the arrays as entered. -/
theorem flushed0 (c : Dev nD) (t : Fin cfg0.N) :
    (dat0 V c).flushed 3 t
      = ((cfg0.win 3).blk t).view.read (Elt Ideal) (encRows (V c main_v0) (V c main_arg2) (V c main_arg3)) := by
  show (cfg0.win 3).cut (grid0.coords t) ((dat0 V c).after 3 t) = _
  rw [after0_3]
  obtain ⟨e00, e01, e10, e11, e20, e30, e31⟩ := idx_facts0 t
  funext y
  show out0_3 (F := Ideal) (iblk0 V c 0 t) (iblk0 V c 1 t) (iblk0 V c 2 t) y
      = encRows (V c main_v0) (V c main_arg2) (V c main_arg3) (((cfg0.win 3).blk t).view.emb y)
  refine (congrFun (out0_3_eq (iblk0 V c 0 t) (iblk0 V c 1 t) (iblk0 V c 2 t)) y).trans ?_
  refine encRows_congr y _ (fun e => ?_) (fun e => ?_) ?_
  · show V c main_v0 (((cfg0.win 0).blk t).view.emb (ix2 (y 0) e))
        = V c main_v0 (ix2 ((((cfg0.win 3).blk t).view.emb y) 0) e)
    refine congrArg (V c main_v0) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * e.val = e.val; omega
  · show V c main_arg2 (((cfg0.win 1).blk t).view.emb (ix2 e (y 1)))
        = V c main_arg2 (ix2 e ((((cfg0.win 3).blk t).view.emb y) 1))
    refine congrArg (V c main_arg2) (funext fun a => Fin.ext ?_)
    match a with
    | ⟨0, _⟩ => show win0_1.index t (0 : Fin 2) * 1024 + 1 * e.val = e.val; omega
    | ⟨1, _⟩ => show win0_1.index t (1 : Fin 2) * 640 + 1 * (y 1).val = win0_3.index t (1 : Fin 2) * 640 + 1 * (y 1).val; omega
  · show V c main_arg3 (((cfg0.win 2).blk t).view.emb (ix1 (y 1)))
        = V c main_arg3 (ix1 ((((cfg0.win 3).blk t).view.emb y) 1))
    refine congrArg (V c main_arg3) (funext fun a => Fin.ext ?_)
    match a with
    | ⟨0, _⟩ => show win0_2.index t (0 : Fin 1) * 640 + 1 * (y 1).val = win0_3.index t (1 : Fin 2) * 640 + 1 * (y 1).val; omega

/-- An index of the output array is in point `t`'s block iff each coordinate is in the block's range on its axis. -/
theorem mem_blk0 (t : Fin cfg0.N) (i : S1024x640.Idx) :
    i ∈ ((cfg0.win 3).blk t).view.set ↔ ∀ a : Fin 2, win0_3.index t a * S1024x640.size a ≤ (i a).val ∧ (i a).val < win0_3.index t a * S1024x640.size a + S1024x640.size a := by
  show i ∈ ((View.whole main_v2).slice (win0_3.rect t)).set ↔ _
  rw [View.set_slice_whole, Rect.mem_set_unit]
  exact Iff.rfl

/-- The one block covers the whole array. -/
theorem cover0 (i : S1024x640.Idx) : ∃ t : Fin cfg0.N, (cfg0.win 3).flush t = true ∧ i ∈ ((cfg0.win 3).blk t).view.set := by
  have hi0 : (i 0).val < 1024 := (i 0).isLt
  have hi1 : (i 1).val < 640 := (i 1).isLt
  obtain ⟨-, -, -, -, -, e30, e31⟩ := idx_facts0 t0_0
  refine ⟨t0_0, flush0_3 t0_0, ?_⟩
  rw [mem_blk0]
  intro a
  match a with
  | ⟨0, _⟩ => show win0_3.index t0_0 (0 : Fin 2) * 1024 ≤ (i 0).val ∧ (i 0).val < win0_3.index t0_0 (0 : Fin 2) * 1024 + 1024; omega
  | ⟨1, _⟩ => show win0_3.index t0_0 (1 : Fin 2) * 640 ≤ (i 1).val ∧ (i 1).val < win0_3.index t0_0 (1 : Fin 2) * 640 + 640; omega

/-- The array the first pipeline leaves: the encoder's affine layer, on merged rows, of the arrays as entered. -/
theorem final0 (c : Dev nD) :
    (dat0 V c).arrAt 3 cfg0.N = encRows (V c main_v0) (V c main_arg2) (V c main_arg3) :=
  (dat0 V c).arrAt_eq_of_cover 3 _ (fun t _ => flushed0 V c t) cover0

/-! ## The prediction projection's array (one grid point, whole blocks) -/

theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- What the one grid point writes back is the (whole) block of the affine layer of the arrays as entered. -/
theorem flushed1 (c : Dev nD) (t : Fin cfg1.N) :
    (dat1 V c).flushed 3 t
      = ((cfg1.win 3).blk t).view.read (Elt Ideal) (predRows (V c main_v1) (V c main_arg4) (V c main_arg5)) := by
  show (cfg1.win 3).cut (grid1.coords t) ((dat1 V c).after 3 t) = _
  rw [after1_3]
  obtain ⟨e00, e01, e10, e11, e20, e30, e31⟩ := idx_facts1 t
  funext y
  show out1_3 (F := Ideal) (iblk1 V c 0 t) (iblk1 V c 1 t) (iblk1 V c 2 t) y
      = predRows (V c main_v1) (V c main_arg4) (V c main_arg5) (((cfg1.win 3).blk t).view.emb y)
  refine (congrFun (out1_3_eq (iblk1 V c 0 t) (iblk1 V c 1 t) (iblk1 V c 2 t)) y).trans ?_
  refine predRows_congr y _ (fun p => ?_) (fun p => ?_) ?_
  · show V c main_v1 (((cfg1.win 0).blk t).view.emb (ix2 (y 0) p))
        = V c main_v1 (ix2 ((((cfg1.win 3).blk t).view.emb y) 0) p)
    refine congrArg (V c main_v1) (funext fun a => Fin.ext ?_)
    match a with
    | ⟨0, _⟩ => show win1_0.index t (0 : Fin 2) * 256 + 1 * (y 0).val = win1_3.index t (0 : Fin 2) * 256 + 1 * (y 0).val; omega
    | ⟨1, _⟩ => show win1_0.index t (1 : Fin 2) * 640 + 1 * p.val = p.val; omega
  · show V c main_arg4 (((cfg1.win 1).blk t).view.emb (ix2 p (y 1)))
        = V c main_arg4 (ix2 p ((((cfg1.win 3).blk t).view.emb y) 1))
    refine congrArg (V c main_arg4) (funext fun a => Fin.ext ?_)
    match a with
    | ⟨0, _⟩ => show win1_1.index t (0 : Fin 2) * 640 + 1 * p.val = p.val; omega
    | ⟨1, _⟩ => show win1_1.index t (1 : Fin 2) * 640 + 1 * (y 1).val = win1_3.index t (1 : Fin 2) * 640 + 1 * (y 1).val; omega
  · show V c main_arg5 (((cfg1.win 2).blk t).view.emb (ix1 (y 1)))
        = V c main_arg5 (ix1 ((((cfg1.win 3).blk t).view.emb y) 1))
    refine congrArg (V c main_arg5) (funext fun a => Fin.ext ?_)
    match a with
    | ⟨0, _⟩ => show win1_2.index t (0 : Fin 1) * 640 + 1 * (y 1).val = win1_3.index t (1 : Fin 2) * 640 + 1 * (y 1).val; omega

theorem mem_blk1 (t : Fin cfg1.N) (i : S256x640.Idx) :
    i ∈ ((cfg1.win 3).blk t).view.set ↔ ∀ a : Fin 2, win1_3.index t a * S256x640.size a ≤ (i a).val ∧ (i a).val < win1_3.index t a * S256x640.size a + S256x640.size a := by
  show i ∈ ((View.whole main_v3).slice (win1_3.rect t)).set ↔ _
  rw [View.set_slice_whole, Rect.mem_set_unit]
  exact Iff.rfl

/-- The one block covers the whole array. -/
theorem cover1 (i : S256x640.Idx) : ∃ t : Fin cfg1.N, (cfg1.win 3).flush t = true ∧ i ∈ ((cfg1.win 3).blk t).view.set := by
  have hi0 : (i 0).val < 256 := (i 0).isLt
  have hi1 : (i 1).val < 640 := (i 1).isLt
  obtain ⟨-, -, -, -, -, e30, e31⟩ := idx_facts1 t1_0
  refine ⟨t1_0, flush1_3 t1_0, ?_⟩
  rw [mem_blk1]
  intro a
  match a with
  | ⟨0, _⟩ => show win1_3.index t1_0 (0 : Fin 2) * 256 ≤ (i 0).val ∧ (i 0).val < win1_3.index t1_0 (0 : Fin 2) * 256 + 256; omega
  | ⟨1, _⟩ => show win1_3.index t1_0 (1 : Fin 2) * 640 ≤ (i 1).val ∧ (i 1).val < win1_3.index t1_0 (1 : Fin 2) * 640 + 640; omega

/-- The array the second pipeline leaves: the prediction network's affine layer, on merged rows, of the arrays as entered. -/
theorem final1 (c : Dev nD) :
    (dat1 V c).arrAt 3 cfg1.N = predRows (V c main_v1) (V c main_arg4) (V c main_arg5) :=
  (dat1 V c).arrAt_eq_of_cover 3 _ (fun t _ => flushed1 V c t) cover1

/-! ## The joint kernel's output array -/

/-- The printed index maps of the third pipeline, decided once over its 32 grid points: the tile of the encoder
    projection moves with the output tile on the batch and the step axis, the slab of the prediction projection with the
    batch axis only, the weights and the bias stay; the output's block index is (b, s, 0, 0) with b ≤ 3 and s ≤ 7. -/
theorem idx_facts2 : ∀ t : Fin cfg2.N,
    win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0
    ∧ win2_4.index t (2 : Fin 4) = 0 ∧ win2_4.index t (3 : Fin 4) = 0
    ∧ win2_4.index t (0 : Fin 4) ≤ 3 ∧ win2_4.index t (1 : Fin 4) ≤ 7 :=
  (by decide +kernel : ∀ t : Fin grid2.N, _)

/-- Every (batch entry, tile of 32 steps) is some grid point's output block. -/
theorem idx_onto2 : ∀ (q0 : Fin 4) (q1 : Fin 8), ∃ t : Fin cfg2.N, win2_4.index t = ![q0.val, q1.val, 0, 0] :=
  (by decide +kernel : ∀ (q0 : Fin 4) (q1 : Fin 8), ∃ t : Fin grid2.N, win2_4.index t = ![q0.val, q1.val, 0, 0])

/-- What grid point `t` writes back is its block of the joint layer of the arrays the pipeline was entered at. -/
theorem flushed2 (c : Dev nD) (t : Fin cfg2.N) :
    (dat2 V c).flushed 4 t
      = ((cfg2.win 4).blk t).view.read (Elt Ideal) (join (V c main_v4) (V c main_v5) (V c main_arg6) (V c main_arg7)) := by
  show (cfg2.win 4).cut (grid2.coords t) ((dat2 V c).after 4 t) = _
  rw [after2_4]
  obtain ⟨e00, e01, e02, e10, e11, e12, e20, e21, e30, e42, e43, -, -⟩ := idx_facts2 t
  funext y
  show out2_4 (F := Ideal) (iblk2 V c 0 t) (iblk2 V c 1 t) (iblk2 V c 2 t) (iblk2 V c 3 t) y
      = join (V c main_v4) (V c main_v5) (V c main_arg6) (V c main_arg7) (((cfg2.win 4).blk t).view.emb y)
  refine (congrFun (out2_4_eq (iblk2 V c 0 t) (iblk2 V c 1 t) (iblk2 V c 2 t) (iblk2 V c 3 t)) y).trans ?_
  have hy0 : (y 0).val < 1 := (y 0).isLt
  refine joinBlock_eq_join y _ (fun j => ?_) (fun j => ?_) (fun j => ?_) ?_
  · show V c main_v4 (((cfg2.win 0).blk t).view.emb (ix3 0 (y 1) j))
        = V c main_v4 (ix3 ((((cfg2.win 4).blk t).view.emb y) 0) ((((cfg2.win 4).blk t).view.emb y) 1) j)
    refine congrArg (V c main_v4) (funext fun a => Fin.ext ?_)
    match a with
    | ⟨0, _⟩ => show win2_0.index t (0 : Fin 3) * 1 + 1 * 0 = win2_4.index t (0 : Fin 4) * 1 + 1 * (y 0).val; omega
    | ⟨1, _⟩ => show win2_0.index t (1 : Fin 3) * 32 + 1 * (y 1).val = win2_4.index t (1 : Fin 4) * 32 + 1 * (y 1).val; omega
    | ⟨2, _⟩ => show win2_0.index t (2 : Fin 3) * 640 + 1 * j.val = j.val; omega
  · show V c main_v5 (((cfg2.win 1).blk t).view.emb (ix3 0 (y 2) j))
        = V c main_v5 (ix3 ((((cfg2.win 4).blk t).view.emb y) 0) ((((cfg2.win 4).blk t).view.emb y) 2) j)
    refine congrArg (V c main_v5) (funext fun a => Fin.ext ?_)
    match a with
    | ⟨0, _⟩ => show win2_1.index t (0 : Fin 3) * 1 + 1 * 0 = win2_4.index t (0 : Fin 4) * 1 + 1 * (y 0).val; omega
    | ⟨1, _⟩ => show win2_1.index t (1 : Fin 3) * 64 + 1 * (y 2).val = win2_4.index t (2 : Fin 4) * 64 + 1 * (y 2).val; omega
    | ⟨2, _⟩ => show win2_1.index t (2 : Fin 3) * 640 + 1 * j.val = j.val; omega
  · show V c main_arg6 (((cfg2.win 2).blk t).view.emb (ix2 j (y 3)))
        = V c main_arg6 (ix2 j ((((cfg2.win 4).blk t).view.emb y) 3))
    refine congrArg (V c main_arg6) (funext fun a => Fin.ext ?_)
    match a with
    | ⟨0, _⟩ => show win2_2.index t (0 : Fin 2) * 640 + 1 * j.val = j.val; omega
    | ⟨1, _⟩ => show win2_2.index t (1 : Fin 2) * 1025 + 1 * (y 3).val = win2_4.index t (3 : Fin 4) * 1025 + 1 * (y 3).val; omega
  · show V c main_arg7 (((cfg2.win 3).blk t).view.emb (ix1 (y 3)))
        = V c main_arg7 (ix1 ((((cfg2.win 4).blk t).view.emb y) 3))
    refine congrArg (V c main_arg7) (funext fun a => Fin.ext ?_)
    match a with
    | ⟨0, _⟩ => show win2_3.index t (0 : Fin 1) * 1025 + 1 * (y 3).val = win2_4.index t (3 : Fin 4) * 1025 + 1 * (y 3).val; omega

/-- An index of the output array is in point `t`'s block iff each coordinate is in the block's range on its axis. -/
theorem mem_blk2 (t : Fin cfg2.N) (i : S4x256x64x1025.Idx) :
    i ∈ ((cfg2.win 4).blk t).view.set ↔ ∀ a : Fin 4, win2_4.index t a * S1x32x64x1025.size a ≤ (i a).val ∧ (i a).val < win2_4.index t a * S1x32x64x1025.size a + S1x32x64x1025.size a := by
  show i ∈ ((View.whole main_v6).slice (win2_4.rect t)).set ↔ _
  rw [View.set_slice_whole, Rect.mem_set_unit]
  exact Iff.rfl

/-- Every entry (b, t, u, v) of the output lies in the block of the grid point (b, t / 32). -/
theorem cover2 (i : S4x256x64x1025.Idx) : ∃ t : Fin cfg2.N, (cfg2.win 4).flush t = true ∧ i ∈ ((cfg2.win 4).blk t).view.set := by
  have hi0 : (i 0).val < 4 := (i 0).isLt
  have hi1 : (i 1).val < 256 := (i 1).isLt
  have hi2 : (i 2).val < 64 := (i 2).isLt
  have hi3 : (i 3).val < 1025 := (i 3).isLt
  obtain ⟨t, ht⟩ := idx_onto2 ⟨(i 0).val, by omega⟩ ⟨(i 1).val / 32, by omega⟩
  have q0 : win2_4.index t (0 : Fin 4) = (i 0).val := congrFun ht 0
  have q1 : win2_4.index t (1 : Fin 4) = (i 1).val / 32 := congrFun ht 1
  have q2 : win2_4.index t (2 : Fin 4) = 0 := congrFun ht 2
  have q3 : win2_4.index t (3 : Fin 4) = 0 := congrFun ht 3
  refine ⟨t, flush2_4 t, ?_⟩
  rw [mem_blk2]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 32 ≤ (i 1).val ∧ (i 1).val < win2_4.index t (1 : Fin 4) * 32 + 32; omega
  | ⟨2, _⟩ => show win2_4.index t (2 : Fin 4) * 64 ≤ (i 2).val ∧ (i 2).val < win2_4.index t (2 : Fin 4) * 64 + 64; omega
  | ⟨3, _⟩ => show win2_4.index t (3 : Fin 4) * 1025 ≤ (i 3).val ∧ (i 3).val < win2_4.index t (3 : Fin 4) * 1025 + 1025; omega

/-- The array the third pipeline leaves: the joint layer of the arrays as entered. -/
theorem final2 (c : Dev nD) :
    (dat2 V c).arrAt 4 cfg2.N = join (V c main_v4) (V c main_v5) (V c main_arg6) (V c main_arg7) :=
  (dat2 V c).arrAt_eq_of_cover 4 _ (fun t _ => flushed2 V c t) cover2

end Cert.KernelIdeal.Arrays

end
-- ==== Proof.Fold.lean ====
/-
  The result array of the kernel program as a function of the launch memory.
  @main is: two row-merging reshapes (f : [4,256,1024] → [1024,1024], g : [4,64,640] → [256,640]); the two projection
  pipelines on the merged arrays; two reshapes that split the rows again ([1024,640] → [4,256,640], [256,640] → [4,64,640]);
  the joint pipeline. Reading the buffers' contents boundary by boundary — a reshape keeps the row-major position, a
  pipeline leaves in its output array the layer of the arrays it was entered at and touches no other buffer — the result
  array holds the joint layer of the two affine layers of the arguments. The only arithmetic is that of positions:
  row b·256+t of the merged encoder array is row (b,t) of `f`, and likewise b·64+u for `g`.
-/
import proofs.«104840_j48172353192301_1_alg».proof.Proof.SpecLaws
import proofs.«104840_j48172353192301_1_alg».proof.Proof.Arrays
import proofs.«104840_j48172353192301_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo
open Idealize.ShloMosaic.Pipeline (Dat Cfg Window)

namespace Cert.KernelIdeal.Fold

open Cert.KernelIdeal Cert.KernelIdeal.Gen Cert.Joint

variable (m : (ℓ : Loc nD τ sig) → Buf (Elt Ideal) ℓ) (ρ : Dev nD → PrngReg)

/-! ## A reshape merges or splits the leading axes: the affine layers on merged rows are the layers on rank-3 arrays -/

/-- Merge (b,t) into one row axis, apply the encoder layer row by row, split the rows again: the encoder layer on the
    rank-3 array. Position (b·256+t)·1024+e of the merged input is entry (b,t,e); position (b·256+t)·640+j of the
    merged output is entry (b,t,j). -/
theorem split_encRows_merge (f : Vec Ideal S4x256x1024 .f32) (We : Vec Ideal S1024x640 .f32) (be : Vec Ideal S640 .f32) :
    shapeCast S4x256x640 (encRows (shapeCast S1024x1024 f shapeCasts_S4x256x1024_S1024x1024) We be) shapeCasts_S1024x640_S4x256x640
      = encProj f We be := by
  funext i
  have hi0 : (i 0).val < 4 := (i 0).isLt
  have hi1 : (i 1).val < 256 := (i 1).isLt
  refine (shapeCast_apply _ _ i (ix2 (⟨(i 0).val * 256 + (i 1).val, by omega⟩ : Fin 1024) (i 2)) ?_).trans ?_
  · rw [Shape.rowMajor_val_two, Shape.rowMajor_val_three]; rfl
  · refine encRows_eq_encProj We be _ i rfl (fun e => ?_)
    refine shapeCast_apply _ _ _ (ix3 (i 0) (i 1) e) ?_
    rw [Shape.rowMajor_val_two, Shape.rowMajor_val_three]; rfl

/-- The same for the prediction network's layer: rows b·64+u. -/
theorem split_predRows_merge (g : Vec Ideal S4x64x640 .f32) (Wp : Vec Ideal S640x640 .f32) (bp : Vec Ideal S640 .f32) :
    shapeCast S4x64x640 (predRows (shapeCast S256x640 g shapeCasts_S4x64x640_S256x640) Wp bp) shapeCasts_S256x640_S4x64x640
      = predProj g Wp bp := by
  funext i
  have hi0 : (i 0).val < 4 := (i 0).isLt
  have hi1 : (i 1).val < 64 := (i 1).isLt
  refine (shapeCast_apply _ _ i (ix2 (⟨(i 0).val * 64 + (i 1).val, by omega⟩ : Fin 256) (i 2)) ?_).trans ?_
  · rw [Shape.rowMajor_val_two, Shape.rowMajor_val_three]; rfl
  · refine predRows_eq_predProj Wp bp _ i rfl (fun p => ?_)
    refine shapeCast_apply _ _ _ (ix3 (i 0) (i 1) p) ?_
    rw [Shape.rowMajor_val_two, Shape.rowMajor_val_three]; rfl

/-! ## The buffers' contents, boundary by boundary -/

/-! ### After the first two reshapes (the first pipeline's entry) -/

theorem V1_v0 (c : Dev nD) : V1 m ρ c main_v0
    = shapeCast S1024x1024 (m ((c : Thread nD τ).loc main_arg0)) shapeCasts_S4x256x1024_S1024x1024 := by
  show StableHlo.after hostOps0 (W0 m ρ c) (Proc.devRef .tc main_v0) = _
  after_results <;> rfl
theorem V1_v1 (c : Dev nD) : V1 m ρ c main_v1
    = shapeCast S256x640 (m ((c : Thread nD τ).loc main_arg1)) shapeCasts_S4x64x640_S256x640 := by
  show StableHlo.after hostOps0 (W0 m ρ c) (Proc.devRef .tc main_v1) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg6 (c : Dev nD) : V1 m ρ c main_arg6 = m ((c : Thread nD τ).loc main_arg6) := by
  show StableHlo.after hostOps0 (W0 m ρ c) (Proc.devRef .tc main_arg6) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl

/-! ### After the first pipeline: its output array at the encoder layer on merged rows, the rest untouched -/

theorem V2_v2 (c : Dev nD) : V2 m ρ c main_v2
    = encRows (shapeCast S1024x1024 (m ((c : Thread nD τ).loc main_arg0)) shapeCasts_S4x256x1024_S1024x1024)
        (m ((c : Thread nD τ).loc main_arg2)) (m ((c : Thread nD τ).loc main_arg3)) := by
  refine ((W2_arr m ρ c 3).trans (Arrays.final0 (V1 m ρ) c)).trans ?_
  rw [V1_v0, V1_arg2, V1_arg3]
theorem V2_v1 (c : Dev nD) : V2 m ρ c main_v1 = V1 m ρ c main_v1 := W2_of_ne m ρ c main_v1 (by decide)
theorem V2_arg4 (c : Dev nD) : V2 m ρ c main_arg4 = V1 m ρ c main_arg4 := W2_of_ne m ρ c main_arg4 (by decide)
theorem V2_arg5 (c : Dev nD) : V2 m ρ c main_arg5 = V1 m ρ c main_arg5 := W2_of_ne m ρ c main_arg5 (by decide)
theorem V2_arg6 (c : Dev nD) : V2 m ρ c main_arg6 = V1 m ρ c main_arg6 := W2_of_ne m ρ c main_arg6 (by decide)
theorem V2_arg7 (c : Dev nD) : V2 m ρ c main_arg7 = V1 m ρ c main_arg7 := W2_of_ne m ρ c main_arg7 (by decide)

/-! ### After the second pipeline: its output array at the prediction layer on merged rows, the rest untouched -/

theorem V3_v3 (c : Dev nD) : V3 m ρ c main_v3
    = predRows (shapeCast S256x640 (m ((c : Thread nD τ).loc main_arg1)) shapeCasts_S4x64x640_S256x640)
        (m ((c : Thread nD τ).loc main_arg4)) (m ((c : Thread nD τ).loc main_arg5)) := by
  refine ((W3_arr m ρ c 3).trans (Arrays.final1 (V2 m ρ) c)).trans ?_
  rw [V2_v1, V2_arg4, V2_arg5, V1_v1, V1_arg4, V1_arg5]
theorem V3_v2 (c : Dev nD) : V3 m ρ c main_v2 = V2 m ρ c main_v2 := W3_of_ne m ρ c main_v2 (by decide)
theorem V3_arg6 (c : Dev nD) : V3 m ρ c main_arg6 = V2 m ρ c main_arg6 := W3_of_ne m ρ c main_arg6 (by decide)
theorem V3_arg7 (c : Dev nD) : V3 m ρ c main_arg7 = V2 m ρ c main_arg7 := W3_of_ne m ρ c main_arg7 (by decide)

/-! ### After the two splitting reshapes (the joint pipeline's entry) -/

theorem V4_v4 (c : Dev nD) : V4 m ρ c main_v4 = shapeCast S4x256x640 (V3 m ρ c main_v2) shapeCasts_S1024x640_S4x256x640 := by
  show StableHlo.after hostOps2 (W3 m ρ c) (Proc.devRef .tc main_v4) = _
  after_results <;> rfl
theorem V4_v5 (c : Dev nD) : V4 m ρ c main_v5 = shapeCast S4x64x640 (V3 m ρ c main_v3) shapeCasts_S256x640_S4x64x640 := by
  show StableHlo.after hostOps2 (W3 m ρ c) (Proc.devRef .tc main_v5) = _
  after_results <;> rfl
theorem V4_arg6 (c : Dev nD) : V4 m ρ c main_arg6 = V3 m ρ c main_arg6 := by
  show StableHlo.after hostOps2 (W3 m ρ c) (Proc.devRef .tc main_arg6) = _
  after_results <;> rfl
theorem V4_arg7 (c : Dev nD) : V4 m ρ c main_arg7 = V3 m ρ c main_arg7 := by
  show StableHlo.after hostOps2 (W3 m ρ c) (Proc.devRef .tc main_arg7) = _
  after_results <;> rfl

/-- The joint pipeline is entered with the encoder projection of the arguments in its first operand's array, -/
theorem V4_enc (c : Dev nD) : V4 m ρ c main_v4
    = encProj (m ((c : Thread nD τ).loc main_arg0)) (m ((c : Thread nD τ).loc main_arg2)) (m ((c : Thread nD τ).loc main_arg3)) := by
  rw [V4_v4, V3_v2, V2_v2]
  exact split_encRows_merge _ _ _
/-- the prediction projection in its second's, -/
theorem V4_pred (c : Dev nD) : V4 m ρ c main_v5
    = predProj (m ((c : Thread nD τ).loc main_arg1)) (m ((c : Thread nD τ).loc main_arg4)) (m ((c : Thread nD τ).loc main_arg5)) := by
  rw [V4_v5, V3_v3]
  exact split_predRows_merge _ _ _
/-- and the output weights and bias as launched. -/
theorem V4_Wo (c : Dev nD) : V4 m ρ c main_arg6 = m ((c : Thread nD τ).loc main_arg6) := by
  rw [V4_arg6, V3_arg6, V2_arg6, V1_arg6]
theorem V4_bo (c : Dev nD) : V4 m ρ c main_arg7 = m ((c : Thread nD τ).loc main_arg7) := by
  rw [V4_arg7, V3_arg7, V2_arg7, V1_arg7]

/-! ## The result -/

/-- At the last boundary the result array holds the joint network of the eight arguments as launched. -/
theorem result (c : Dev nD) : W5 m ρ c (Proc.devRef .tc main_v6)
    = logits (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine ((W5_arr m ρ c 4).trans (Arrays.final2 (V4 m ρ) c)).trans ?_
  rw [V4_enc, V4_pred, V4_Wo, V4_bo]
  rfl

end Cert.KernelIdeal.Fold

end
-- ==== Proof.RefValue.lean ====
/-
  The reference, read at an index: its twenty host operations compose to the joint network of the specification —
  two contractions over the last axis of the inputs with their bias rows broadcast, the two projections broadcast against
  each other along the missing sequence axis and added, the maximum with a zero array, the last contraction and its bias.
-/
import proofs.«104840_j48172353192301_1_alg».proof.Proof.Spec
import proofs.«104840_j48172353192301_1_alg».proof.Proof.Gen.ReferenceIdeal.Read
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Joint

/-- The encoder's projection with its bias, at (b,t,j): the contraction reads row (b,t) of the sequence against column j
    of the weight, and the bias row, broadcast twice, is read at j. -/
theorem enc_at (x0 : (⟨S4x256x1024, .f32⟩ : BufTy).Contents (Elt Ideal)) (x2 : (⟨S1024x640, .f32⟩ : BufTy).Contents (Elt Ideal))
    (x3 : (⟨S640, .f32⟩ : BufTy).Contents (Elt Ideal)) (b : Fin 4) (t : Fin 256) (j : Fin 640) :
    val_main_v3 (F := Ideal) x0 x2 x3 (ix3 b t j) = encProj x0 x2 x3 (ix3 b t j) := by
  have hl : ∀ e : Fin 1024, lidx_main_v0 (ix3 b t j) e = ix3 b t e := fun e => funext fun a => Fin.ext (by
    match a with | ⟨0, _⟩ => rfl | ⟨1, _⟩ => rfl | ⟨2, _⟩ => rfl)
  have hr : ∀ e : Fin 1024, ridx_main_v0 (ix3 b t j) e = ix2 e j := fun e => funext fun a => Fin.ext (by
    match a with | ⟨0, _⟩ => rfl | ⟨1, _⟩ => rfl)
  have hb : idx_main_v1 (idx_main_v2 (ix3 b t j)) = ix1 j := funext fun a => Fin.ext (by
    match a with | ⟨0, _⟩ => rfl)
  rw [val_main_v3_apply, val_main_v0_apply, val_main_v2_apply, val_main_v1_apply, hb]
  simp only [hl, hr, Ideal.addf_def]
  rfl

/-- The prediction network's projection with its bias, at (b,u,j). -/
theorem pred_at (x1 : (⟨S4x64x640, .f32⟩ : BufTy).Contents (Elt Ideal)) (x4 : (⟨S640x640, .f32⟩ : BufTy).Contents (Elt Ideal))
    (x5 : (⟨S640, .f32⟩ : BufTy).Contents (Elt Ideal)) (b : Fin 4) (u : Fin 64) (j : Fin 640) :
    val_main_v7 (F := Ideal) x1 x4 x5 (ix3 b u j) = predProj x1 x4 x5 (ix3 b u j) := by
  have hl : ∀ p : Fin 640, lidx_main_v4 (ix3 b u j) p = ix3 b u p := fun p => funext fun a => Fin.ext (by
    match a with | ⟨0, _⟩ => rfl | ⟨1, _⟩ => rfl | ⟨2, _⟩ => rfl)
  have hr : ∀ p : Fin 640, ridx_main_v4 (ix3 b u j) p = ix2 p j := fun p => funext fun a => Fin.ext (by
    match a with | ⟨0, _⟩ => rfl | ⟨1, _⟩ => rfl)
  have hb : idx_main_v5 (idx_main_v6 (ix3 b u j)) = ix1 j := funext fun a => Fin.ext (by
    match a with | ⟨0, _⟩ => rfl)
  rw [val_main_v7_apply, val_main_v4_apply, val_main_v6_apply, val_main_v5_apply, hb]
  simp only [hl, hr, Ideal.addf_def]
  rfl

/-- The rectified sum at (b,t,u,j): each projection is broadcast along the sequence axis it lacks, so the encoder's is
    read at (b,t,j) and the prediction network's at (b,u,j); the array the maximum is taken against is zero everywhere. -/
theorem relu_at (x0 : (⟨S4x256x1024, .f32⟩ : BufTy).Contents (Elt Ideal)) (x1 : (⟨S4x64x640, .f32⟩ : BufTy).Contents (Elt Ideal))
    (x2 : (⟨S1024x640, .f32⟩ : BufTy).Contents (Elt Ideal)) (x3 : (⟨S640, .f32⟩ : BufTy).Contents (Elt Ideal))
    (x4 : (⟨S640x640, .f32⟩ : BufTy).Contents (Elt Ideal)) (x5 : (⟨S640, .f32⟩ : BufTy).Contents (Elt Ideal))
    (b : Fin 4) (t : Fin 256) (u : Fin 64) (j : Fin 640) :
    val_main_v13 (F := Ideal) x0 x1 x2 x3 x4 x5 (ix4 b t u j)
      = max (encProj x0 x2 x3 (ix3 b t j) + predProj x1 x4 x5 (ix3 b u j)) 0 := by
  have he : idx_main_v8 (idx_main_v10 (ix4 b t u j)) = ix3 b t j := funext fun a => Fin.ext (by
    match a with | ⟨0, _⟩ => rfl | ⟨1, _⟩ => rfl | ⟨2, _⟩ => rfl)
  have hp : idx_main_v9 (idx_main_v11 (ix4 b t u j)) = ix3 b u j := funext fun a => Fin.ext (by
    match a with | ⟨0, _⟩ => rfl | ⟨1, _⟩ => rfl | ⟨2, _⟩ => rfl)
  rw [val_main_v13_apply, val_main_v12_apply, val_main_v10_apply, val_main_v8_apply, he, val_main_v11_apply,
    val_main_v9_apply, hp, val_main_call0_v0_apply, val_main_call0_cst_apply, enc_at, pred_at, Ideal.maximumf_def,
    Ideal.addf_def, Ideal.ofBits_def, Ideal.ofBits_zero_f32]

/-- The reference's last stage is the joint network of its eight arguments. -/
theorem ref_eq (x0 : (⟨S4x256x1024, .f32⟩ : BufTy).Contents (Elt Ideal)) (x1 : (⟨S4x64x640, .f32⟩ : BufTy).Contents (Elt Ideal))
    (x2 : (⟨S1024x640, .f32⟩ : BufTy).Contents (Elt Ideal)) (x3 : (⟨S640, .f32⟩ : BufTy).Contents (Elt Ideal))
    (x4 : (⟨S640x640, .f32⟩ : BufTy).Contents (Elt Ideal)) (x5 : (⟨S640, .f32⟩ : BufTy).Contents (Elt Ideal))
    (x6 : (⟨S640x1025, .f32⟩ : BufTy).Contents (Elt Ideal)) (x7 : (⟨S1025, .f32⟩ : BufTy).Contents (Elt Ideal)) :
    val_main_v17 (F := Ideal) x0 x1 x2 x3 x4 x5 x6 x7 = logits x0 x1 x2 x3 x4 x5 x6 x7 := by
  funext i
  obtain ⟨b, t, u, v, rfl⟩ : ∃ (b : Fin 4) (t : Fin 256) (u : Fin 64) (v : Fin 1025), i = ix4 b t u v :=
    ⟨i 0, i 1, i 2, i 3, eq_ix4 i⟩
  have hl : ∀ j : Fin 640, lidx_main_v14 (ix4 b t u v) j = ix4 b t u j := fun j => funext fun a => Fin.ext (by
    match a with | ⟨0, _⟩ => rfl | ⟨1, _⟩ => rfl | ⟨2, _⟩ => rfl | ⟨3, _⟩ => rfl)
  have hr : ∀ j : Fin 640, ridx_main_v14 (ix4 b t u v) j = ix2 j v := fun j => funext fun a => Fin.ext (by
    match a with | ⟨0, _⟩ => rfl | ⟨1, _⟩ => rfl)
  have hb : idx_main_v15 (idx_main_v16 (ix4 b t u v)) = ix1 v := funext fun a => Fin.ext (by
    match a with | ⟨0, _⟩ => rfl)
  rw [val_main_v17_apply, val_main_v14_apply, val_main_v16_apply, val_main_v15_apply, hb]
  simp only [hl, hr, relu_at, Ideal.addf_def]
  rfl

end Cert.ReferenceIdeal.RefValue

end
-- ==== Proof.lean ====
/-
  A transducer joint network, computed two ways, is one function of its eight arguments over the extended reals.

  The network: the encoder sequence f[b,t,·] and the prediction sequence g[b,u,·] pass through affine layers into a
  common space, fp[b,t,j] = Σ_e f[b,t,e]·We[e,j] + be[j] and gp[b,u,j] = Σ_p g[b,u,p]·Wp[p,j] + bp[j]; each pair (t,u) is
  joined by max(fp[b,t,j] + gp[b,u,j], 0); the joined vector passes through a last affine layer,
      out[b,t,u,v] = Σ_j max(fp[b,t,j] + gp[b,u,j], 0)·Wo[j,v] + bo[v]            (Proof/Spec.lean, `Cert.Joint.logits`).

  The kernel program merges (b,t) and (b,u) into row axes, runs the two affine layers as one-block matrix products with a
  broadcast bias, splits the rows again, and runs the joint layer tile by tile over a 4 × 8 grid — batch entry b, encoder
  steps 32·s … 32·s+31 — in half precision with a single-precision accumulator. Over the extended reals a change of float
  format is the identity and a matrix product into a zero accumulator is the plain sum, so each kernel stores its layer of
  the blocks it loaded (Proof/LinearBody.lean, Proof/JointBody.lean); a block's entry sits at block index × block size +
  offset, the output blocks cover their arrays, so each pipeline leaves its layer of the arrays it was entered at
  (Proof/Arrays.lean); and a reshape keeps row-major positions — row b·256+t of the merged array is row (b,t) — so the
  result array holds `logits` of the arguments (Proof/Fold.lean, over the run of Proof/KernelRun.lean).
  The reference computes the same three contractions, broadcasts and the maximum with zero as host operations; read at an
  index it is `logits` term by term (Proof/RefValue.lean, over the generated run and read-at-an-index modules).
  Both sides are the same sums of the same products in the same shape: no law of the extended reals beyond reading
  indices is used, and the finiteness of the inputs is never opened. No operation was rewritten in idealizing the
  kernel, so the idealization claim is the true proposition.
-/
import proofs.«104840_j48172353192301_1_alg».proof.Defs
import proofs.«104840_j48172353192301_1_alg».proof.Proof.Gen.Kernel
import proofs.«104840_j48172353192301_1_alg».proof.Proof.Gen.Kernel.Skeleton
import proofs.«104840_j48172353192301_1_alg».proof.Proof.Gen.Kernel.Launch
import proofs.«104840_j48172353192301_1_alg».proof.Proof.Gen.Kernel.Points
import proofs.«104840_j48172353192301_1_alg».proof.Proof.Gen.Kernel.Frame
import proofs.«104840_j48172353192301_1_alg».proof.Proof.Gen.KernelIdeal
import proofs.«104840_j48172353192301_1_alg».proof.Proof.Gen.KernelIdeal.Skeleton
import proofs.«104840_j48172353192301_1_alg».proof.Proof.Gen.KernelIdeal.Launch
import proofs.«104840_j48172353192301_1_alg».proof.Proof.Gen.KernelIdeal.Points
import proofs.«104840_j48172353192301_1_alg».proof.Proof.Gen.KernelIdeal.Frame
import proofs.«104840_j48172353192301_1_alg».proof.Proof.Gen.ReferenceIdeal
import proofs.«104840_j48172353192301_1_alg».proof.Proof.Gen.Pre_finite_inputs
import proofs.«104840_j48172353192301_1_alg».proof.Proof.Gen.ReferenceIdeal.Run
import proofs.«104840_j48172353192301_1_alg».proof.Proof.Gen.ReferenceIdeal.Read
import proofs.«104840_j48172353192301_1_alg».proof.Proof.KernelRun
import proofs.«104840_j48172353192301_1_alg».proof.Proof.Fold
import proofs.«104840_j48172353192301_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result array at the joint network
    `logits` of those arguments: the kernel program by the fold of its boundaries' contents, the reference by its
    operations read at an index. -/
theorem algebraic : Cert.algebraic_KernelIdeal_ReferenceIdeal := by
  intro m ρ m' ρ' _ hagree
  refine ⟨fun c => Cert.Joint.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v17_eq, Cert.ReferenceIdeal.RefValue.ref_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
